-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  bcast_S640000_S640000x1_0 : S640000.BroadcastsInDim S640000x1 (![0] : Fin 1 → Fin S640000x1.rank)
  reducesTo_S640000_S_d0 : S640000.ReducesTo [0] S_
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]

variable [Facts]

def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def fn_part2 {F : FTy → Type} [FloatOps F] (main_arg3 : IVec S640000 32) (main_arg4 : FVec F S100000 .f32) (main_arg5 : FVec F S50000 .f32) (main_v28 : IVec S_ 1) (main_v33 : IVec S640000 32) : IVec S_ 1 :=
  let main_v34 : IVec S640000x1 32 := broadcastInDim S640000x1 ![0] bcast_S640000_S640000x1_0 main_v33
  let main_v35 : FVec F S640000 .f32 := (fun x i => Host.gather gather_S100000_S640000x1_S640000_n_0_n_n_0_1_1 x i) main_arg4 main_v34
  let main_c_12 : IVec S_ 32 := constantI S_ 32 0#32
  let main_v36 : IVec S640000 32 := broadcastInDim S640000 ![] bcast_S_S640000 main_c_12
  let main_v37 : IVec S640000 1 := cmpi .slt main_arg3 main_v36
  let main_c_13 : IVec S_ 32 := constantI S_ 32 50000#32
  let main_v38 : IVec S640000 32 := broadcastInDim S640000 ![] bcast_S_S640000 main_c_13
  let main_v39 : IVec S640000 32 := addi main_arg3 main_v38
  let main_v40 : IVec S640000 32 := select main_v37 main_v39 main_arg3
  let main_v41 : IVec S640000x1 32 := broadcastInDim S640000x1 ![0] bcast_S640000_S640000x1_0 main_v40
  let main_v42 : FVec F S640000 .f32 := (fun x i => Host.gather gather_S50000_S640000x1_S640000_n_0_n_n_0_1_1 x i) main_arg5 main_v41
  let main_v43 : FVec F S640000 .f32 := mulf main_v35 main_v42
  let main_cst_14 : FVec F S_ .f32 := constant S_ .f32 0x00000000#32
  let main_v44 : FVec F S640000 .f32 := broadcastInDim S640000 ![] bcast_S_S640000 main_cst_14
  let main_v45 : IVec S640000 1 := cmpf .oge main_v43 main_v44
  let main_c_15 : IVec S_ 1 := constantI S_ 1 1#1
  let main_v46 : IVec S_ 1 := (fun x v => Host.reduce IntOp.andi x v reducesTo_S640000_S_d0 h_S_) main_v45 main_c_15
  let main_v47 : IVec S_ 1 := andi main_v28 main_v46
  main_v47

def fn_part1 {F : FTy → Type} [FloatOps F] (main_arg2 : IVec S640000 32) (main_arg3 : IVec S640000 32) (main_arg4 : FVec F S100000 .f32) (main_arg5 : FVec F S50000 .f32) (main_arg6 : FVec F S128x128 .f32) (main_arg7 : FVec F S128x128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .slt main_arg2 main_v29
  let main_c_11 : IVec S_ 32 := constantI S_ 32 100000#32
  let main_v31 : IVec S640000 32 := broadcastInDim S640000 ![] bcast_S_S640000 main_c_11
  let main_v32 : IVec S640000 32 := addi main_arg2 main_v31
  let main_v33 : IVec S640000 32 := select main_v30 main_v32 main_arg2
  fn_part2 (F := F) main_arg3 main_arg4 main_arg5 main_v28 main_v33

def fn {F : FTy → Type} [FloatOps F] (main_arg0 : FVec F S100000x128 .f32) (main_arg1 : FVec F S50000x128 .f32) (main_arg2 : IVec S640000 32) (main_arg3 : IVec S640000 32) (main_arg4 : FVec F S100000 .f32) (main_arg5 : FVec F S50000 .f32) (main_arg6 : FVec F S128x128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S50000 .f32 := Host.absf main_arg5
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_arg4 main_arg5 main_arg6 main_arg7 main_v13 main_v16
-- ==== Kernel.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S4000x128 : Shape := ⟨2, ![4000, 128]⟩
abbrev S4000x1 : Shape := ⟨2, ![4000, 1]⟩
abbrev S5000x128 : Shape := ⟨2, ![5000, 128]⟩

abbrev nBuf : Space → Nat
  | .hbm => 64
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S100000, .f32⟩
  | .hbm, ⟨5, _⟩ => ⟨S50000, .f32⟩
  | .hbm, ⟨6, _⟩ => ⟨S128x128, .f32⟩
  | .hbm, ⟨7, _⟩ => ⟨S128x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000, .f32⟩
  | .hbm, ⟨44, _⟩ => ⟨S640000, .f32⟩
  | .hbm, ⟨45, _⟩ => ⟨S640000x1, .f32⟩
  | .hbm, ⟨46, _⟩ => ⟨S640000x128, .bf16⟩
  | .hbm, ⟨47, _⟩ => ⟨S640000x128, .bf16⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S100000x128, .f32⟩
  | .hbm, ⟨56, _⟩ => ⟨S640000x1, .i32⟩
  | .hbm, ⟨57, _⟩ => ⟨S100000x128, .f32⟩
  | .hbm, ⟨58, _⟩ => ⟨S_, .f32⟩
  | .hbm, ⟨59, _⟩ => ⟨S50000x128, .f32⟩
  | .hbm, ⟨60, _⟩ => ⟨S640000x1, .i32⟩
  | .hbm, ⟨61, _⟩ => ⟨S50000x128, .f32⟩
  | .hbm, ⟨62, _⟩ => ⟨S100000x128, .f32⟩
  | .hbm, ⟨63, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  bitsLt_bf16_f32 : FTy.bits .bf16 < FTy.bits .f32
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S100000x128_S640000x1_S640000x128_1_0_n_n_0_1_1128_wf : GatherDims.WF S100000x128 S640000x1 S640000x128 [1] [0] [] [0] [] 1 ![1, 128]
  gather_S50000x128_S640000x1_S640000x128_1_0_n_n_0_1_1128_wf : GatherDims.WF S50000x128 S640000x1 S640000x128 [1] [0] [] [0] [] 1 ![1, 128]
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]
  dot_S4000x128_S128x128_S4000x128_1_0_0_1_n_n_wf : DotDims.WF S4000x128 S128x128 S4000x128 [1] [0] [0] [1] [] []
  scatter_S100000x128_S640000x1_S640000x128_1_0_0_1_wf : ScatterDims.WF S100000x128 S640000x1 S640000x128 [1] [0] [0] 1
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S640000x128.size a
  hwx0_5 : ∀ i : grid0.Coords, EltTy.bits .f32 = 32 ∨ (Rect.block (s := S640000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S640000x128.size a
  hwx0_6 : ∀ i : grid0.Coords, EltTy.bits .f32 = 32 ∨ (Rect.block (s := S640000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S100000, .f32⟩
  | .hbm, ⟨5, _⟩ => ⟨S50000, .f32⟩
  | .hbm, ⟨6, _⟩ => ⟨S128x128, .f32⟩
  | .hbm, ⟨7, _⟩ => ⟨S128x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S_, .f32⟩
  | .hbm, ⟨47, _⟩ => ⟨S640000, .f32⟩
  | .hbm, ⟨48, _⟩ => ⟨S640000, .f32⟩
  | .hbm, ⟨49, _⟩ => ⟨S640000, .f32⟩
  | .hbm, ⟨50, _⟩ => ⟨S_, .f32⟩
  | .hbm, ⟨51, _⟩ => ⟨S640000, .f32⟩
  | .hbm, ⟨52, _⟩ => ⟨S640000, .f32⟩
  | .hbm, ⟨53, _⟩ => ⟨S128x128, .f32⟩
  | .hbm, ⟨54, _⟩ => ⟨S640000x128, .f32⟩
  | .hbm, ⟨55, _⟩ => ⟨S128x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S128x128, .f32⟩
  | .hbm, ⟨66, _⟩ => ⟨S640000x128, .f32⟩
  | .hbm, ⟨67, _⟩ => ⟨S128x128, .f32⟩
  | .hbm, ⟨68, _⟩ => ⟨S640000x128, .f32⟩
  | .hbm, ⟨69, _⟩ => ⟨S640000x128, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S50000x128, .f32⟩
  | .hbm, ⟨75, _⟩ => ⟨S640000x1, .i32⟩
  | .hbm, ⟨76, _⟩ => ⟨S50000x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .i1⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .i1⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S50000x128 : S_.BroadcastsInDim S50000x128 (![] : Fin 0 → Fin S50000x128.rank)
  gather_S100000x128_S640000x1_S640000x128_1_0_n_n_0_1_1128_wf : GatherDims.WF S100000x128 S640000x1 S640000x128 [1] [0] [] [0] [] 1 ![1, 128]
  gather_S50000x128_S640000x1_S640000x128_1_0_n_n_0_1_1128_wf : GatherDims.WF S50000x128 S640000x1 S640000x128 [1] [0] [] [0] [] 1 ![1, 128]
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  scatter_S50000x128_S640000x1_S640000x128_1_0_0_1_wf : ScatterDims.WF S50000x128 S640000x1 S640000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, at the extended reals.

  One edge `e` with endpoint rows `x(e, ·)` and `p(e, ·)` (an endpoint's features, and the product of the two
  endpoints' features), weights `w1`, `w2` (already transposed: `w(k, j)`) and a degree product `s(e)` sends the message
      (∑ₖ x(e,k)·w1(k,j) + ∑ₖ p(e,k)·w2(k,j)) · 1/√(s(e) + ε).
  One program multiplies the normalisation into the rows BEFORE the contraction and takes it as a reciprocal square
  root (`msgK`); the other multiplies AFTER the contraction and divides one by a square root (`msgR`). For finite
  rows and weights and a finite degree product `s(e) ≥ 0` the normalisation is a positive real, so it moves across the
  finite sums and the two forms are one number (`msgK_eq_msgR`).

  A node's new row is the leaky rectifier of its own transformed row plus the messages summed into it (`upd`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Edge rows: 640000 edges by 128 features. -/
abbrev SE : Shape := ⟨2, ![640000, 128]⟩
/-- One number per edge, kept as a column. -/
abbrev SEc : Shape := ⟨2, ![640000, 1]⟩
/-- One number per edge. -/
abbrev SEv : Shape := ⟨1, ![640000]⟩
/-- A weight matrix. -/
abbrev SW : Shape := ⟨2, ![128, 128]⟩
/-- Node rows: `n` nodes by 128 features. -/
abbrev SN (n : Nat) : Shape := ⟨2, ![n, 128]⟩

/-- The stabiliser under the square root (the binary value of the word both programs carry). -/
def eps : EReal := Ideal.ofBits .f32 0x322BCC77#32
/-- The rectifier's slope on the negative side (the binary value of the word both programs carry). -/
def slope : EReal := Ideal.ofBits .f32 0x3DCCCCCD#32
/-- The zero word's value. -/
def zero : EReal := Ideal.ofBits .f32 0x00000000#32

/-- The leaky rectifier: `z` where `z ≥ 0`, else `slope · z`. -/
def leaky (z : EReal) : EReal :=
  Scalar.select (FloatOps.cmpf (F := Ideal) (φ := .f32) .oge z zero) z (slope * z)

/-- The message with the normalisation multiplied into the rows before the contraction, as a reciprocal square root. -/
def msgK (x p : SE.Idx → EReal) (d : SEc.Idx → EReal) (w1 w2 : SW.Idx → EReal) (e : Fin 640000) (j : Fin 128) : EReal :=
  (∑ k : Fin 128, (x (ix2 e k) * Ideal.rsqrt (d (ix2 e 0) + eps)) * w1 (ix2 k j))
    + ∑ k : Fin 128, (p (ix2 e k) * Ideal.rsqrt (d (ix2 e 0) + eps)) * w2 (ix2 k j)

/-- The message with the normalisation multiplied after the contraction, as one over a square root. -/
def msgR (x p : SE.Idx → EReal) (s : SEv.Idx → EReal) (w1 w2 : SW.Idx → EReal) (e : Fin 640000) (j : Fin 128) : EReal :=
  ((∑ k : Fin 128, x (ix2 e k) * w1 (ix2 k j)) + ∑ k : Fin 128, p (ix2 e k) * w2 (ix2 k j))
    * Ideal.div (Ideal.ofBits .f32 0x3F800000#32) (Ideal.sqrt (s (ix1 e) + eps))

/-- A node's new feature: the rectifier of its transformed row plus its summed messages. -/
def upd {n : Nat} (x msg : (SN n).Idx → EReal) (w : SW.Idx → EReal) (r : Fin n) (j : Fin 128) : EReal :=
  leaky ((∑ k : Fin 128, x (ix2 r k) * w (ix2 k j)) + msg (ix2 r j))

/-- The one word's value. -/
theorem one_eq : (Ideal.ofBits .f32 0x3F800000#32 : EReal) = (1 : EReal) := by
  simp [Ideal.ofBits, Ideal.ieee, -EReal.coe_mul]; norm_num

/-- The stabiliser is a positive real (a normal binary32 value). -/
theorem eps_pos : ∃ q : ℝ, 0 < q ∧ eps = (q : EReal) := by
  unfold eps
  simp [Ideal.ofBits, Ideal.ieee, -EReal.coe_mul]

/-- The coercion of a finite sum of reals is the sum of the coercions. -/
theorem coe_sum {ι : Type} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- For finite rows and weights and a finite non-negative degree product the two forms of the message agree. -/
theorem msgK_eq_msgR (x p : SE.Idx → EReal) (d : SEc.Idx → EReal) (s : SEv.Idx → EReal) (w1 w2 : SW.Idx → EReal)
    (e : Fin 640000) (j : Fin 128)
    (hx : ∀ i, ∃ r : ℝ, x i = (r : EReal)) (hp : ∀ i, ∃ r : ℝ, p i = (r : EReal))
    (hw1 : ∀ i, ∃ r : ℝ, w1 i = (r : EReal)) (hw2 : ∀ i, ∃ r : ℝ, w2 i = (r : EReal))
    (hs : ∃ r : ℝ, s (ix1 e) = (r : EReal) ∧ 0 ≤ r) (hd : d (ix2 e 0) = s (ix1 e)) :
    msgK x p d w1 w2 e j = msgR x p s w1 w2 e j := by
  choose xr hxr using hx
  choose pr hpr using hp
  choose w1r hw1r using hw1
  choose w2r hw2r using hw2
  obtain ⟨r, hr, hr0⟩ := hs
  obtain ⟨q, hq, hqe⟩ := eps_pos
  -- the argument of the square root is a positive real
  have hy : 0 < r + q := by linarith
  have hsq : 0 < Real.sqrt (r + q) := Real.sqrt_pos.mpr hy
  -- both normalisations are the same real, the reciprocal of its square root
  have hK : Ideal.rsqrt (d (ix2 e 0) + eps) = (((Real.sqrt (r + q))⁻¹ : ℝ) : EReal) := by
    rw [hd, hr, hqe, ← EReal.coe_add, Ideal.rsqrt_coe, if_neg (not_lt.mpr hy.le), if_neg hy.ne']
  have hR : Ideal.div (Ideal.ofBits .f32 0x3F800000#32) (Ideal.sqrt (s (ix1 e) + eps))
      = (((Real.sqrt (r + q))⁻¹ : ℝ) : EReal) := by
    rw [hr, hqe, ← EReal.coe_add, Ideal.sqrt_coe, if_neg (not_lt.mpr hy.le), Ideal.div_coe hsq.ne', one_eq,
      one_mul, one_div]
  unfold msgK msgR
  rw [hK, hR]
  -- everything is a finite sum of reals: compare in ℝ
  simp only [hxr, hpr, hw1r, hw2r, ← EReal.coe_mul, ← coe_sum, ← EReal.coe_add]
  congr 1
  rw [add_mul, Finset.sum_mul, Finset.sum_mul]
  congr 1 <;> exact Finset.sum_congr rfl (fun k _ => by ring)

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KR0.lean ====
import proofs.«122977_j13778255086103_1_alg».proof.Proof.Gen.KernelIdeal.Frame
import proofs.«122977_j13778255086103_1_alg».proof.Proof.Spec
import proofs.«122977_j13778255086103_1_alg».proof.Proof.LibRowwise
import Idealize.ShloMosaic.Lib.Pipeline.Value

/-!
  The edge region's two result arrays after its run, each as one function of the region's five input arrays as it
  finds them: block `t` of a result holds rows `4000·t … 4000·t + 3999`, every row `e` the message `Spec.msgK` of
  row `e` of the endpoint features, the degree product's column entry `e` and the two whole weight matrices; the 160
  blocks tile the 640000 rows.
-/

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The region's input arrays as it finds them, at their literal types. -/
abbrev aU (c : Dev nD) : Spec.SE.Idx → EReal := V c main_v30
abbrev aV (c : Dev nD) : Spec.SE.Idx → EReal := V c main_v31
abbrev aD (c : Dev nD) : Spec.SEc.Idx → EReal := V c main_v29
abbrev aW1 (c : Dev nD) : Spec.SW.Idx → EReal := V c main_v33
abbrev aW2 (c : Dev nD) : Spec.SW.Idx → EReal := V c main_v35
/-- The elementwise product of the two endpoints' features. -/
abbrev aP (c : Dev nD) : Spec.SE.Idx → EReal := fun i => aU V c i * aV V c i

/-- The zero offsets, as a constant function. -/
theorem hz : (![0, 0] : Fin 2 → Nat) = fun _ => 0 := funext fun a => by fin_cases a <;> rfl

/-- The normalisation column at a row: the reciprocal square root of the degree product plus the stabiliser. -/
theorem norm_apply (x2 : Vec Ideal S4000x1 .f32) (p : Fin 4000) (u : Fin 1) :
    (k0_pay3 (F := Ideal) x2 (ix2 p u) : EReal) = Ideal.rsqrt (x2 (ix2 p u) + Spec.eps) := by
  unfold k0_pay3
  rw [shapeCast_self]
  rfl

/-- The normalisation broadcast along the lanes. -/
theorem normB_apply (x2 : Vec Ideal S4000x1 .f32) (p : Fin 4000) (q : Fin 128) :
    (broadcastTo S4000x128 (k0_pay3 (F := Ideal) x2) broadcasts_S4000x1_S4000x128 (ix2 p q) : EReal) = Ideal.rsqrt (x2 (ix2 p 0) + Spec.eps) := by
  refine (Cert.Lib.Rowwise.columnBroadcast_apply (k0_pay3 (F := Ideal) x2) broadcasts_S4000x1_S4000x128 (by decide) p q).trans ?_
  exact norm_apply x2 p 0

/-- The first endpoint's widened rows read the rows themselves. -/
theorem pay1_apply (x : Vec Ideal S4000x128 .bf16) (i : S4000x128.Idx) : (k0_pay1 (F := Ideal) x i : EReal) = x i := by
  unfold k0_pay1
  rw [shapeCast_self]
  rfl

/-- The second endpoint's widened rows read the rows themselves. -/
theorem pay2_apply (x : Vec Ideal S4000x128 .bf16) (i : S4000x128.Idx) : (k0_pay2 (F := Ideal) x i : EReal) = x i := by
  unfold k0_pay2
  rw [shapeCast_self]
  rfl

/-- The first weight matrix passes unchanged. -/
theorem pay5_eq (x : Vec Ideal S128x128 .bf16) : k0_pay5 (F := Ideal) x = x := by
  unfold k0_pay5
  exact shapeCast_self _ _

/-- The second weight matrix passes unchanged. -/
theorem pay6_eq (x : Vec Ideal S128x128 .bf16) : k0_pay6 (F := Ideal) x = x := by
  unfold k0_pay6
  exact shapeCast_self _ _

/-- The normalised product of the two endpoints' rows at an index. -/
theorem pay4_apply (x0 x1 : Vec Ideal S4000x128 .bf16) (x2 : Vec Ideal S4000x1 .f32) (p : Fin 4000) (q : Fin 128) :
    (k0_pay4 (F := Ideal) x0 x1 x2 (ix2 p q) : EReal)
      = (x0 (ix2 p q) * x1 (ix2 p q)) * Ideal.rsqrt (x2 (ix2 p 0) + Spec.eps) := by
  unfold k0_pay4
  show (k0_pay1 (F := Ideal) x0 (ix2 p q) * k0_pay2 (F := Ideal) x1 (ix2 p q))
    * broadcastTo S4000x128 (k0_pay3 (F := Ideal) x2) broadcasts_S4000x1_S4000x128 (ix2 p q) = _
  rw [pay1_apply, pay2_apply, normB_apply]

/-- The contraction is the plain matrix product. -/
theorem dot_eq : dot_S4000x128_S128x128_S4000x128_1_0_0_1_n_n = DotDims.plain 4000 128 128 :=
  Cert.Lib.Rowwise.eq_plain _ rfl rfl rfl rfl rfl rfl

/-- The block's product with a weight matrix into the zero accumulator, at an index. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  rw [dot_eq]
  exact Cert.Lib.Rowwise.plain_matmul_zero_apply none a b p q

/-- Window 5's block at an index: the second endpoint's normalised row through the first weight matrix plus the
    normalised product row through the second. -/
theorem pay7_apply (x0 x1 : Vec Ideal S4000x128 .bf16) (x2 : Vec Ideal S4000x1 .f32) (x3 x4 : Vec Ideal S128x128 .bf16)
    (p : Fin 4000) (q : Fin 128) :
    (k0_pay7 (F := Ideal) x0 x1 x2 x3 x4 (ix2 p q) : EReal)
      = (∑ k : Fin 128, (x1 (ix2 p k) * Ideal.rsqrt (x2 (ix2 p 0) + Spec.eps)) * x3 (ix2 k q))
        + ∑ k : Fin 128, ((x0 (ix2 p k) * x1 (ix2 p k)) * Ideal.rsqrt (x2 (ix2 p 0) + Spec.eps)) * x4 (ix2 k q) := by
  unfold k0_pay7
  rw [addf_apply, mm_apply, mm_apply, pay5_eq, pay6_eq]
  congr 1
  · refine Finset.sum_congr rfl fun k _ => ?_
    show (k0_pay2 (F := Ideal) x1 (ix2 p k)
      * broadcastTo S4000x128 (k0_pay3 (F := Ideal) x2) broadcasts_S4000x1_S4000x128 (ix2 p k)) * x3 (ix2 k q) = _
    rw [pay2_apply, normB_apply]
  · refine Finset.sum_congr rfl fun k _ => ?_
    rw [pay4_apply]

/-- Window 6's block at an index: the same with the first endpoint's row in the first product. -/
theorem pay8_apply (x0 x1 : Vec Ideal S4000x128 .bf16) (x2 : Vec Ideal S4000x1 .f32) (x3 x4 : Vec Ideal S128x128 .bf16)
    (p : Fin 4000) (q : Fin 128) :
    (k0_pay8 (F := Ideal) x0 x1 x2 x3 x4 (ix2 p q) : EReal)
      = (∑ k : Fin 128, (x0 (ix2 p k) * Ideal.rsqrt (x2 (ix2 p 0) + Spec.eps)) * x3 (ix2 k q))
        + ∑ k : Fin 128, ((x0 (ix2 p k) * x1 (ix2 p k)) * Ideal.rsqrt (x2 (ix2 p 0) + Spec.eps)) * x4 (ix2 k q) := by
  unfold k0_pay8
  rw [addf_apply, mm_apply, mm_apply, pay5_eq, pay6_eq]
  congr 1
  · refine Finset.sum_congr rfl fun k _ => ?_
    show (k0_pay1 (F := Ideal) x0 (ix2 p k)
      * broadcastTo S4000x128 (k0_pay3 (F := Ideal) x2) broadcasts_S4000x1_S4000x128 (ix2 p k)) * x3 (ix2 k q) = _
    rw [pay1_apply, normB_apply]
  · refine Finset.sum_congr rfl fun k _ => ?_
    rw [pay4_apply]

/-- What the body leaves in window 5's buffer, at an index. -/
theorem out5_apply (x0 x1 : Vec Ideal S4000x128 .bf16) (x2 : Vec Ideal S4000x1 .f32) (x3 x4 : Vec Ideal S128x128 .bf16)
    (p : Fin 4000) (q : Fin 128) :
    (out0_5 (F := Ideal) x0 x1 x2 x3 x4 (ix2 p q) : EReal)
      = (∑ k : Fin 128, (x1 (ix2 p k) * Ideal.rsqrt (x2 (ix2 p 0) + Spec.eps)) * x3 (ix2 k q))
        + ∑ k : Fin 128, ((x0 (ix2 p k) * x1 (ix2 p k)) * Ideal.rsqrt (x2 (ix2 p 0) + Spec.eps)) * x4 (ix2 k q) := by
  unfold out0_5
  rw [View.canon_unit_zero hz]
  simp only [View.ld_unit_zero (S := S4000x128) hz, View.ld_unit_zero (S := S4000x1) hz, View.ld_unit_zero (S := S128x128) hz]
  exact pay7_apply x0 x1 x2 x3 x4 p q

/-- What the body leaves in window 6's buffer, at an index. -/
theorem out6_apply (x0 x1 : Vec Ideal S4000x128 .bf16) (x2 : Vec Ideal S4000x1 .f32) (x3 x4 : Vec Ideal S128x128 .bf16)
    (p : Fin 4000) (q : Fin 128) :
    (out0_6 (F := Ideal) x0 x1 x2 x3 x4 (ix2 p q) : EReal)
      = (∑ k : Fin 128, (x0 (ix2 p k) * Ideal.rsqrt (x2 (ix2 p 0) + Spec.eps)) * x3 (ix2 k q))
        + ∑ k : Fin 128, ((x0 (ix2 p k) * x1 (ix2 p k)) * Ideal.rsqrt (x2 (ix2 p 0) + Spec.eps)) * x4 (ix2 k q) := by
  unfold out0_6
  rw [View.canon_unit_zero hz]
  simp only [View.ld_unit_zero (S := S4000x128) hz, View.ld_unit_zero (S := S4000x1) hz, View.ld_unit_zero (S := S128x128) hz]
  exact pay8_apply x0 x1 x2 x3 x4 p q

/-- The index maps over the grid: a blocked window's block at point `t` is block `(t, 0)`, a weight window's `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block `t` of the first endpoint's rows is rows `4000·t …` of the array. -/
theorem iblk_u (c : Dev nD) (t : Fin cfg0.N) (y : S4000x128.Idx) (i : Spec.SE.Idx)
    (h0 : (i 0).val = 4000 * t.val + (y 0).val) (h1 : (i 1).val = (y 1).val) :
    (iblk0 (F := Ideal) V c 0 t : Vec Ideal S4000x128 .bf16) y = aU V c i := by
  obtain ⟨e0, e1, -⟩ := idx_facts t
  unfold iblk0
  show aU V c (((cfg0.win 0).blk t).view.emb y) = aU V c i
  refine congrArg (aU V c) (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- Block `t` of the second endpoint's rows is rows `4000·t …` of the array. -/
theorem iblk_v (c : Dev nD) (t : Fin cfg0.N) (y : S4000x128.Idx) (i : Spec.SE.Idx)
    (h0 : (i 0).val = 4000 * t.val + (y 0).val) (h1 : (i 1).val = (y 1).val) :
    (iblk0 (F := Ideal) V c 1 t : Vec Ideal S4000x128 .bf16) y = aV V c i := by
  obtain ⟨-, -, e0, e1, -⟩ := idx_facts t
  unfold iblk0
  show aV V c (((cfg0.win 1).blk t).view.emb y) = aV V c i
  refine congrArg (aV V c) (funext fun a => Fin.ext ?_)
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- Block `t` of the degree product's column is entries `4000·t …` of the array. -/
theorem iblk_d (c : Dev nD) (t : Fin cfg0.N) (y : S4000x1.Idx) (i : Spec.SEc.Idx)
    (h0 : (i 0).val = 4000 * t.val + (y 0).val) (h1 : (i 1).val = (y 1).val) :
    (iblk0 (F := Ideal) V c 2 t : Vec Ideal S4000x1 .f32) y = aD V c i := by
  obtain ⟨-, -, -, -, e0, e1, -⟩ := idx_facts t
  unfold iblk0
  show aD V c (((cfg0.win 2).blk t).view.emb y) = aD V c i
  refine congrArg (aD V c) (funext fun a => Fin.ext ?_)
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

/-- The first weight window's one block is the whole matrix. -/
theorem iblk_w1 (c : Dev nD) (t : Fin cfg0.N) :
    (iblk0 (F := Ideal) V c 3 t : Vec Ideal S128x128 .bf16) = aW1 V c := by
  obtain ⟨-, -, -, -, -, -, e0, e1, -⟩ := idx_facts t
  unfold iblk0
  funext y
  show aW1 V c (((cfg0.win 3).blk t).view.emb y) = aW1 V c y
  refine congrArg (aW1 V c) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second weight window's one block is the whole matrix. -/
theorem iblk_w2 (c : Dev nD) (t : Fin cfg0.N) :
    (iblk0 (F := Ideal) V c 4 t : Vec Ideal S128x128 .bf16) = aW2 V c := by
  obtain ⟨-, -, -, -, -, -, -, -, e0, e1, -⟩ := idx_facts t
  unfold iblk0
  funext y
  show aW2 V c (((cfg0.win 4).blk t).view.emb y) = aW2 V c y
  refine congrArg (aW2 V c) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The row of the arrays under row `p` of block `t`. -/
def rowOf (t : Fin cfg0.N) (p : Fin 4000) : Fin 640000 :=
  ⟨4000 * t.val + p.val, by have h : t.val < grid0.N := t.isLt; have hN : grid0.N = 160 := N_0; omega⟩

/-- Row `p`, lane `q` of window 5's block `t` sits at row `4000·t + p`, lane `q` of the array. -/
theorem emb5 (t : Fin cfg0.N) (p : Fin 4000) (q : Fin 128) :
    ((cfg0.win 5).blk t).view.emb (ix2 p q) = (ix2 (rowOf t p) q : Spec.SE.Idx) := by
  obtain ⟨-, -, -, -, -, -, -, -, -, -, e0, e1, -⟩ := idx_facts t
  funext a; apply Fin.ext
  match a with
  | ⟨0, _⟩ => show win0_5.index t (0 : Fin 2) * 4000 + 1 * p.val = 4000 * t.val + p.val; rw [e0]; omega
  | ⟨1, _⟩ => show win0_5.index t (1 : Fin 2) * 128 + 1 * q.val = q.val; rw [e1]; omega

/-- What point `t` writes back into window 5 is block `t` of the messages from the second endpoint's rows. -/
theorem flushed5_eq (c : Dev nD) (t : Fin cfg0.N) :
    (dat0 (F := Ideal) V c).flushed 5 t = ((cfg0.win 5).blk t).view.read (Elt Ideal)
      (fun i => Spec.msgK (aV V c) (aP V c) (aD V c) (aW1 V c) (aW2 V c) (i 0) (i 1)) := by
  show (cfg0.win 5).cut (grid0.coords t) ((dat0 V c).after 5 t) = _
  rw [after0_5]
  funext j
  obtain ⟨p, q, rfl⟩ : ∃ (p : Fin 4000) (q : Fin 128), j = ix2 p q := ⟨j 0, j 1, eq_ix2 j⟩
  show out0_5 (F := Ideal) (iblk0 V c 0 t) (iblk0 V c 1 t) (iblk0 V c 2 t) (iblk0 V c 3 t) (iblk0 V c 4 t) (ix2 p q)
    = (fun i : Spec.SE.Idx => Spec.msgK (aV V c) (aP V c) (aD V c) (aW1 V c) (aW2 V c) (i 0) (i 1)) (((cfg0.win 5).blk t).view.emb (ix2 p q))
  rw [emb5, out5_apply]
  show _ = Spec.msgK (aV V c) (aP V c) (aD V c) (aW1 V c) (aW2 V c) (rowOf t p) q
  unfold Spec.msgK
  rw [iblk_w1, iblk_w2, iblk_d V c t (ix2 p 0) (ix2 (rowOf t p) 0) rfl rfl]
  refine congrArg₂ (· + ·) ?_ ?_
  · refine Finset.sum_congr rfl fun k _ => ?_
    rw [iblk_v V c t (ix2 p k) (ix2 (rowOf t p) k) rfl rfl]
  · refine Finset.sum_congr rfl fun k _ => ?_
    rw [iblk_u V c t (ix2 p k) (ix2 (rowOf t p) k) rfl rfl, iblk_v V c t (ix2 p k) (ix2 (rowOf t p) k) rfl rfl]

/-- An index of the array is in point `t`'s block of window 5 iff each coordinate is in the block's range on its axis. -/
theorem mem_blk5 (t : Fin cfg0.N) (i : S640000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v36_0).slice (win0_5.rect t)).set ↔ _
  rw [View.set_slice_whole, Rect.mem_set_unit]
  exact Iff.rfl

/-- Row `r` lies in block `r / 4000`; the lanes are covered whole. -/
theorem cover5 (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 128 ≤ (i 1).val ∧ (i 1).val < win0_5.index t (1 : Fin 2) * 128 + 128
    rw [e1]; omega

/-- The messages into the first node set: from the second endpoint's features. -/
theorem final0_5 (c : Dev nD) : (dat0 (F := Ideal) V c).arrAt 5 cfg0.N
    = fun i => Spec.msgK (aV V c) (aP V c) (aD V c) (aW1 V c) (aW2 V c) (i 0) (i 1) :=
  (dat0 (F := Ideal) V c).arrAt_eq_of_cover 5 _ (fun t _ => flushed5_eq V c t) cover5

/-- Row `p`, lane `q` of window 6's block `t` sits at row `4000·t + p`, lane `q` of the array. -/
theorem emb6 (t : Fin cfg0.N) (p : Fin 4000) (q : Fin 128) :
    ((cfg0.win 6).blk t).view.emb (ix2 p q) = (ix2 (rowOf t p) q : Spec.SE.Idx) := by
  obtain ⟨-, -, -, -, -, -, -, -, -, -, -, -, e0, e1⟩ := idx_facts t
  funext a; apply Fin.ext
  match a with
  | ⟨0, _⟩ => show win0_6.index t (0 : Fin 2) * 4000 + 1 * p.val = 4000 * t.val + p.val; rw [e0]; omega
  | ⟨1, _⟩ => show win0_6.index t (1 : Fin 2) * 128 + 1 * q.val = q.val; rw [e1]; omega

/-- What point `t` writes back into window 6 is block `t` of the messages from the first endpoint's rows. -/
theorem flushed6_eq (c : Dev nD) (t : Fin cfg0.N) :
    (dat0 (F := Ideal) V c).flushed 6 t = ((cfg0.win 6).blk t).view.read (Elt Ideal)
      (fun i => Spec.msgK (aU V c) (aP V c) (aD V c) (aW1 V c) (aW2 V c) (i 0) (i 1)) := by
  show (cfg0.win 6).cut (grid0.coords t) ((dat0 V c).after 6 t) = _
  rw [after0_6]
  funext j
  obtain ⟨p, q, rfl⟩ : ∃ (p : Fin 4000) (q : Fin 128), j = ix2 p q := ⟨j 0, j 1, eq_ix2 j⟩
  show out0_6 (F := Ideal) (iblk0 V c 0 t) (iblk0 V c 1 t) (iblk0 V c 2 t) (iblk0 V c 3 t) (iblk0 V c 4 t) (ix2 p q)
    = (fun i : Spec.SE.Idx => Spec.msgK (aU V c) (aP V c) (aD V c) (aW1 V c) (aW2 V c) (i 0) (i 1)) (((cfg0.win 6).blk t).view.emb (ix2 p q))
  rw [emb6, out6_apply]
  show _ = Spec.msgK (aU V c) (aP V c) (aD V c) (aW1 V c) (aW2 V c) (rowOf t p) q
  unfold Spec.msgK
  rw [iblk_w1, iblk_w2, iblk_d V c t (ix2 p 0) (ix2 (rowOf t p) 0) rfl rfl]
  refine congrArg₂ (· + ·) ?_ ?_
  · refine Finset.sum_congr rfl fun k _ => ?_
    rw [iblk_u V c t (ix2 p k) (ix2 (rowOf t p) k) rfl rfl]
  · refine Finset.sum_congr rfl fun k _ => ?_
    rw [iblk_u V c t (ix2 p k) (ix2 (rowOf t p) k) rfl rfl, iblk_v V c t (ix2 p k) (ix2 (rowOf t p) k) rfl rfl]

/-- An index of the array is in point `t`'s block of window 6 iff each coordinate is in the block's range on its axis. -/
theorem mem_blk6 (t : Fin cfg0.N) (i : S640000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v36_1).slice (win0_6.rect t)).set ↔ _
  rw [View.set_slice_whole, Rect.mem_set_unit]
  exact Iff.rfl

/-- Row `r` lies in block `r / 4000`; the lanes are covered whole. -/
theorem cover6 (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 128 ≤ (i 1).val ∧ (i 1).val < win0_6.index t (1 : Fin 2) * 128 + 128
    rw [e1]; omega

/-- The messages into the second node set: from the first endpoint's features. -/
theorem final0_6 (c : Dev nD) : (dat0 (F := Ideal) V c).arrAt 6 cfg0.N
    = fun i => Spec.msgK (aU V c) (aP V c) (aD V c) (aW1 V c) (aW2 V c) (i 0) (i 1) :=
  (dat0 (F := Ideal) V c).arrAt_eq_of_cover 6 _ (fun t _ => flushed6_eq V c t) cover6

end Cert.KernelIdeal.KV

end
-- ==== Proof.KR1.lean ====
import proofs.«122977_j13778255086103_1_alg».proof.Proof.Gen.KernelIdeal.Frame
import proofs.«122977_j13778255086103_1_alg».proof.Proof.Spec
import proofs.«122977_j13778255086103_1_alg».proof.Proof.LibRowwise
import Idealize.ShloMosaic.Lib.Pipeline.Value

/-!
  A node-update region's result array after its run as one function of its three input arrays as it finds them:
  block `t` holds rows `5000·t … 5000·t + 4999`, every row `r` the update `Spec.upd` of row `r` of the node features,
  row `r` of the summed messages and the whole weight matrix; the 20 blocks tile the 100000 rows.
-/

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offset of a whole-block access. -/
theorem zeroOff1 : (![0, 0] : Fin 2 → Nat) = fun _ => 0 := funext fun a => by fin_cases a <;> rfl

/-- The region's matrix product into the zero word, at a row and a lane: the sum over the contracted coordinate. -/
theorem product1_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  rw [Cert.Lib.Rowwise.eq_plain dot_S5000x128_S128x128_S5000x128_1_0_0_1_n_n rfl rfl rfl rfl rfl rfl]
  exact Cert.Lib.Rowwise.plain_matmul_zero_apply none a b p q

/-- What the body leaves in the result's buffer, at a row and a lane: the update of that row. -/
theorem out1_apply (x0 x1 : Vec Ideal S5000x128 .f32) (x2 : Vec Ideal S128x128 .bf16) (p : Fin 5000) (q : Fin 128) :
    out1_3 x0 x1 x2 (ix2 p q) = Spec.leaky ((∑ k : Fin 128, x0 (ix2 p k) * x2 (ix2 k q)) + x1 (ix2 p q)) := by
  unfold out1_3
  rw [View.canon_unit_zero zeroOff1]
  simp only [View.ld_unit_zero (S := S5000x128) zeroOff1, View.ld_unit_zero (S := S128x128) zeroOff1]
  unfold k1_pay1
  simp only [shapeCast_self]
  simp only [select_apply, cmpf_apply, mulf_apply, addf_apply, broadcast_apply, product1_apply, truncf_apply]
  rfl

/-- The block indices of the four windows at every point: the row-blocked windows sit at block `(t, 0)`, the weights at `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node features' block at a point, at an index of the block: the array at the index the block sends it to. -/
theorem iblk1_0_apply (c : Dev nD) (t : Fin cfg1.N) (y : S5000x128.Idx) :
    iblk1 V c 0 t y = V c main_arg0 (((cfg1.win 0).blk t).view.emb y) := by
  unfold iblk1
  rfl

/-- The summed messages' block at a point, at an index of the block. -/
theorem iblk1_1_apply (c : Dev nD) (t : Fin cfg1.N) (y : S5000x128.Idx) :
    iblk1 V c 1 t y = V c main_v39 (((cfg1.win 1).blk t).view.emb y) := by
  unfold iblk1
  rfl

/-- The weights' block at a point, at an index of the block. -/
theorem iblk1_2_apply (c : Dev nD) (t : Fin cfg1.N) (y : S128x128.Idx) :
    iblk1 V c 2 t y = V c main_v33 (((cfg1.win 2).blk t).view.emb y) := by
  unfold iblk1
  rfl

/-- Row `p` of the features' block `t` is the row of the array that row `p` of the result's block `t` is. -/
theorem emb1_0 (t : Fin cfg1.N) (p : Fin 5000) (k q : Fin 128) :
    ((cfg1.win 0).blk t).view.emb (ix2 p k) = ix2 ((((cfg1.win 3).blk t).view.emb (ix2 p q)) 0) k := by
  obtain ⟨e00, e01, e10, e11, e20, e21, e30, e31⟩ := blockIndex1 t
  funext a; apply Fin.ext
  match a with
  | ⟨0, _⟩ => show win1_0.index t (0 : Fin 2) * 5000 + 1 * p.val = win1_3.index t (0 : Fin 2) * 5000 + 1 * p.val; omega
  | ⟨1, _⟩ => show win1_0.index t (1 : Fin 2) * 128 + 1 * k.val = k.val; omega

/-- An index of the messages' block `t` is the index of the array that the same index of the result's block `t` is. -/
theorem emb1_1 (t : Fin cfg1.N) (p : Fin 5000) (q : Fin 128) :
    ((cfg1.win 1).blk t).view.emb (ix2 p q)
      = ix2 ((((cfg1.win 3).blk t).view.emb (ix2 p q)) 0) ((((cfg1.win 3).blk t).view.emb (ix2 p q)) 1) := by
  obtain ⟨e00, e01, e10, e11, e20, e21, e30, e31⟩ := blockIndex1 t
  funext a; apply Fin.ext
  match a with
  | ⟨0, _⟩ => show win1_1.index t (0 : Fin 2) * 5000 + 1 * p.val = win1_3.index t (0 : Fin 2) * 5000 + 1 * p.val; omega
  | ⟨1, _⟩ => show win1_1.index t (1 : Fin 2) * 128 + 1 * q.val = win1_3.index t (1 : Fin 2) * 128 + 1 * q.val; omega

/-- The weights' one block is the whole matrix; lane `q` of the result's block is lane `q` of the array. -/
theorem emb1_2 (t : Fin cfg1.N) (p : Fin 5000) (k q : Fin 128) :
    ((cfg1.win 2).blk t).view.emb (ix2 k q) = ix2 k ((((cfg1.win 3).blk t).view.emb (ix2 p q)) 1) := by
  obtain ⟨e00, e01, e10, e11, e20, e21, e30, e31⟩ := blockIndex1 t
  funext a; apply Fin.ext
  match a with
  | ⟨0, _⟩ => show win1_2.index t (0 : Fin 2) * 128 + 1 * k.val = k.val; omega
  | ⟨1, _⟩ => show win1_2.index t (1 : Fin 2) * 128 + 1 * q.val = win1_3.index t (1 : Fin 2) * 128 + 1 * q.val; omega

/-- What a point writes back is its block of the update of the three arrays. -/
theorem flushed1_eq (c : Dev nD) (t : Fin cfg1.N) :
    (dat1 (F := Ideal) V c).flushed 3 t
      = ((cfg1.win 3).blk t).view.read (Elt Ideal) (fun i => Spec.upd (n := 100000) (V c main_arg0) (V c main_v39) (V c main_v33) (i 0) (i 1)) := by
  show (cfg1.win 3).cut (grid1.coords t) ((dat1 V c).after 3 t) = _
  rw [after1_3]
  funext j
  obtain ⟨p, q, rfl⟩ : ∃ (p : Fin 5000) (q : Fin 128), j = ix2 p q := ⟨j 0, j 1, eq_ix2 j⟩
  refine (out1_apply (iblk1 V c 0 t) (iblk1 V c 1 t) (iblk1 V c 2 t) p q).trans ?_
  show _ = Spec.upd (n := 100000) (V c main_arg0) (V c main_v39) (V c main_v33)
    ((((cfg1.win 3).blk t).view.emb (ix2 p q)) 0) ((((cfg1.win 3).blk t).view.emb (ix2 p q)) 1)
  unfold Spec.upd
  refine congrArg Spec.leaky ?_
  refine congrArg₂ (· + ·) (Finset.sum_congr rfl fun k _ => congrArg₂ (· * ·) ?_ ?_) ?_
  · exact (iblk1_0_apply V c t _).trans (congrArg (V c main_arg0) (emb1_0 t p k q))
  · exact (iblk1_2_apply V c t _).trans (congrArg (V c main_v33) (emb1_2 t p k q))
  · exact (iblk1_1_apply V c t _).trans (congrArg (V c main_v39) (emb1_1 t p q))

/-- An index of the array is in a point's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v43).slice (win1_3.rect t)).set ↔ _
  rw [View.set_slice_whole, Rect.mem_set_unit]
  exact Iff.rfl

/-- Row `r` is in the block of point `r / 5000`; every block holds all 128 lanes. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; omega⟩, rfl⟩
  obtain ⟨e00, e01, e10, e11, e20, e21, e30, e31⟩ := blockIndex1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The region's input arrays as it finds them, at their literal types. -/
abbrev bX1 (c : Dev nD) : (Spec.SN 100000).Idx → EReal := V c main_arg0
abbrev bM1 (c : Dev nD) : (Spec.SN 100000).Idx → EReal := V c main_v39
abbrev bW1 (c : Dev nD) : Spec.SW.Idx → EReal := V c main_v33

theorem final1_3 (c : Dev nD) : (dat1 (F := Ideal) V c).arrAt 3 cfg1.N
    = fun i => Spec.upd (n := 100000) (bX1 V c) (bM1 V c) (bW1 V c) (i 0) (i 1) :=
  (dat1 (F := Ideal) V c).arrAt_eq_of_cover 3 _ (fun t _ => flushed1_eq V c t) cover1

end Cert.KernelIdeal.KV

end
-- ==== Proof.KR2.lean ====
import proofs.«122977_j13778255086103_1_alg».proof.Proof.Gen.KernelIdeal.Frame
import proofs.«122977_j13778255086103_1_alg».proof.Proof.Spec
import proofs.«122977_j13778255086103_1_alg».proof.Proof.LibRowwise
import Idealize.ShloMosaic.Lib.Pipeline.Value

/-!
  A node-update region's result array after its run as one function of its three input arrays as it finds them:
  block `t` holds rows `5000·t … 5000·t + 4999`, every row `r` the update `Spec.upd` of row `r` of the node features,
  row `r` of the summed messages and the whole weight matrix; the 10 blocks tile the 50000 rows.
-/

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offset of a whole-block access. -/
theorem zeroOff2 : (![0, 0] : Fin 2 → Nat) = fun _ => 0 := funext fun a => by fin_cases a <;> rfl

/-- The region's matrix product into the zero word, at a row and a lane: the sum over the contracted coordinate. -/
theorem product2_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  rw [Cert.Lib.Rowwise.eq_plain dot_S5000x128_S128x128_S5000x128_1_0_0_1_n_n rfl rfl rfl rfl rfl rfl]
  exact Cert.Lib.Rowwise.plain_matmul_zero_apply none a b p q

/-- What the body leaves in the result's buffer, at a row and a lane: the update of that row. -/
theorem out2_apply (x0 x1 : Vec Ideal S5000x128 .f32) (x2 : Vec Ideal S128x128 .bf16) (p : Fin 5000) (q : Fin 128) :
    out2_3 x0 x1 x2 (ix2 p q) = Spec.leaky ((∑ k : Fin 128, x0 (ix2 p k) * x2 (ix2 k q)) + x1 (ix2 p q)) := by
  unfold out2_3
  rw [View.canon_unit_zero zeroOff2]
  simp only [View.ld_unit_zero (S := S5000x128) zeroOff2, View.ld_unit_zero (S := S128x128) zeroOff2]
  unfold k2_pay1
  simp only [shapeCast_self]
  simp only [select_apply, cmpf_apply, mulf_apply, addf_apply, broadcast_apply, product2_apply, truncf_apply]
  rfl

/-- The block indices of the four windows at every point: the row-blocked windows sit at block `(t, 0)`, the weights at `(0, 0)`. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The node features' block at a point, at an index of the block: the array at the index the block sends it to. -/
theorem iblk2_0_apply (c : Dev nD) (t : Fin cfg2.N) (y : S5000x128.Idx) :
    iblk2 V c 0 t y = V c main_arg1 (((cfg2.win 0).blk t).view.emb y) := by
  unfold iblk2
  rfl

/-- The summed messages' block at a point, at an index of the block. -/
theorem iblk2_1_apply (c : Dev nD) (t : Fin cfg2.N) (y : S5000x128.Idx) :
    iblk2 V c 1 t y = V c main_v42 (((cfg2.win 1).blk t).view.emb y) := by
  unfold iblk2
  rfl

/-- The weights' block at a point, at an index of the block. -/
theorem iblk2_2_apply (c : Dev nD) (t : Fin cfg2.N) (y : S128x128.Idx) :
    iblk2 V c 2 t y = V c main_v33 (((cfg2.win 2).blk t).view.emb y) := by
  unfold iblk2
  rfl

/-- Row `p` of the features' block `t` is the row of the array that row `p` of the result's block `t` is. -/
theorem emb2_0 (t : Fin cfg2.N) (p : Fin 5000) (k q : Fin 128) :
    ((cfg2.win 0).blk t).view.emb (ix2 p k) = ix2 ((((cfg2.win 3).blk t).view.emb (ix2 p q)) 0) k := by
  obtain ⟨e00, e01, e10, e11, e20, e21, e30, e31⟩ := blockIndex2 t
  funext a; apply Fin.ext
  match a with
  | ⟨0, _⟩ => show win2_0.index t (0 : Fin 2) * 5000 + 1 * p.val = win2_3.index t (0 : Fin 2) * 5000 + 1 * p.val; omega
  | ⟨1, _⟩ => show win2_0.index t (1 : Fin 2) * 128 + 1 * k.val = k.val; omega

/-- An index of the messages' block `t` is the index of the array that the same index of the result's block `t` is. -/
theorem emb2_1 (t : Fin cfg2.N) (p : Fin 5000) (q : Fin 128) :
    ((cfg2.win 1).blk t).view.emb (ix2 p q)
      = ix2 ((((cfg2.win 3).blk t).view.emb (ix2 p q)) 0) ((((cfg2.win 3).blk t).view.emb (ix2 p q)) 1) := by
  obtain ⟨e00, e01, e10, e11, e20, e21, e30, e31⟩ := blockIndex2 t
  funext a; apply Fin.ext
  match a with
  | ⟨0, _⟩ => show win2_1.index t (0 : Fin 2) * 5000 + 1 * p.val = win2_3.index t (0 : Fin 2) * 5000 + 1 * p.val; omega
  | ⟨1, _⟩ => show win2_1.index t (1 : Fin 2) * 128 + 1 * q.val = win2_3.index t (1 : Fin 2) * 128 + 1 * q.val; omega

/-- The weights' one block is the whole matrix; lane `q` of the result's block is lane `q` of the array. -/
theorem emb2_2 (t : Fin cfg2.N) (p : Fin 5000) (k q : Fin 128) :
    ((cfg2.win 2).blk t).view.emb (ix2 k q) = ix2 k ((((cfg2.win 3).blk t).view.emb (ix2 p q)) 1) := by
  obtain ⟨e00, e01, e10, e11, e20, e21, e30, e31⟩ := blockIndex2 t
  funext a; apply Fin.ext
  match a with
  | ⟨0, _⟩ => show win2_2.index t (0 : Fin 2) * 128 + 1 * k.val = k.val; omega
  | ⟨1, _⟩ => show win2_2.index t (1 : Fin 2) * 128 + 1 * q.val = win2_3.index t (1 : Fin 2) * 128 + 1 * q.val; omega

/-- What a point writes back is its block of the update of the three arrays. -/
theorem flushed2_eq (c : Dev nD) (t : Fin cfg2.N) :
    (dat2 (F := Ideal) V c).flushed 3 t
      = ((cfg2.win 3).blk t).view.read (Elt Ideal) (fun i => Spec.upd (n := 50000) (V c main_arg1) (V c main_v42) (V c main_v33) (i 0) (i 1)) := by
  show (cfg2.win 3).cut (grid2.coords t) ((dat2 V c).after 3 t) = _
  rw [after2_3]
  funext j
  obtain ⟨p, q, rfl⟩ : ∃ (p : Fin 5000) (q : Fin 128), j = ix2 p q := ⟨j 0, j 1, eq_ix2 j⟩
  refine (out2_apply (iblk2 V c 0 t) (iblk2 V c 1 t) (iblk2 V c 2 t) p q).trans ?_
  show _ = Spec.upd (n := 50000) (V c main_arg1) (V c main_v42) (V c main_v33)
    ((((cfg2.win 3).blk t).view.emb (ix2 p q)) 0) ((((cfg2.win 3).blk t).view.emb (ix2 p q)) 1)
  unfold Spec.upd
  refine congrArg Spec.leaky ?_
  refine congrArg₂ (· + ·) (Finset.sum_congr rfl fun k _ => congrArg₂ (· * ·) ?_ ?_) ?_
  · exact (iblk2_0_apply V c t _).trans (congrArg (V c main_arg1) (emb2_0 t p k q))
  · exact (iblk2_2_apply V c t _).trans (congrArg (V c main_v33) (emb2_2 t p k q))
  · exact (iblk2_1_apply V c t _).trans (congrArg (V c main_v42) (emb2_1 t p q))

/-- An index of the array is in a point's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v44).slice (win2_3.rect t)).set ↔ _
  rw [View.set_slice_whole, Rect.mem_set_unit]
  exact Iff.rfl

/-- Row `r` is in the block of point `r / 5000`; every block holds all 128 lanes. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨e00, e01, e10, e11, e20, e21, e30, e31⟩ := blockIndex2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The region's input arrays as it finds them, at their literal types. -/
abbrev bX2 (c : Dev nD) : (Spec.SN 50000).Idx → EReal := V c main_arg1
abbrev bM2 (c : Dev nD) : (Spec.SN 50000).Idx → EReal := V c main_v42
abbrev bW2 (c : Dev nD) : Spec.SW.Idx → EReal := V c main_v33

theorem final2_3 (c : Dev nD) : (dat2 (F := Ideal) V c).arrAt 3 cfg2.N
    = fun i => Spec.upd (n := 50000) (bX2 V c) (bM2 V c) (bW2 V c) (i 0) (i 1) :=
  (dat2 (F := Ideal) V c).arrAt_eq_of_cover 3 _ (fun t _ => flushed2_eq V c t) cover2

end Cert.KernelIdeal.KV

end
-- ==== Proof.KFold.lean ====
import proofs.«122977_j13778255086103_1_alg».proof.Proof.Gen.KernelIdeal.Frame
import proofs.«122977_j13778255086103_1_alg».proof.Proof.Gen.ReferenceIdeal.Read
import proofs.«122977_j13778255086103_1_alg».proof.Proof.KR0
import proofs.«122977_j13778255086103_1_alg».proof.Proof.KR1
import proofs.«122977_j13778255086103_1_alg».proof.Proof.KR2
import Idealize.ShloMosaic.Lib.StableHlo.Run

/-!
  The buffer contents at each boundary of the kernel program's run, walked back to the launch memory.

  Before the edge region the host operations gather the endpoint rows and degrees, multiply the degrees, and transpose
  the weights: the same operations, on the same arguments, as the reference's first stages, so each array the edge region
  finds IS the reference's stage of the arguments (a change of float format is the identity at the extended reals).
  Between the regions the host scatters each message array into a zero array by the endpoint indices. The node-update
  regions read the node features as launched, those scattered sums and the transposed first weight matrix.
  So each result array is `Spec.upd` of the launched node features, the scatter of the edge region's `Spec.msgK` array,
  and the transposed weights.
-/

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The launch contents of the eight argument arrays, at their literal types. -/
abbrev a0 (c : Dev nD) : FVec Ideal S100000x128 .f32 := m ((c : Thread nD τ).loc main_arg0)
abbrev a1 (c : Dev nD) : FVec Ideal S50000x128 .f32 := m ((c : Thread nD τ).loc main_arg1)
abbrev a2 (c : Dev nD) : IVec S640000 32 := m ((c : Thread nD τ).loc main_arg2)
abbrev a3 (c : Dev nD) : IVec S640000 32 := m ((c : Thread nD τ).loc main_arg3)
abbrev a4 (c : Dev nD) : FVec Ideal S100000 .f32 := m ((c : Thread nD τ).loc main_arg4)
abbrev a5 (c : Dev nD) : FVec Ideal S50000 .f32 := m ((c : Thread nD τ).loc main_arg5)
abbrev a6 (c : Dev nD) : FVec Ideal S128x128 .f32 := m ((c : Thread nD τ).loc main_arg6)
abbrev a7 (c : Dev nD) : FVec Ideal S128x128 .f32 := m ((c : Thread nD τ).loc main_arg7)

/-! ## What the edge region finds -/

set_option maxHeartbeats 1000000 in
/-- The first endpoint's gathered rows. -/
theorem V1_v30 (c : Dev nD) : V1 m ρ c main_v30 = Cert.ReferenceIdeal.Read.val_main_v6 (F := Ideal) (a0 m c) (a2 m c) := by
  show StableHlo.after hostOps0 (W0 m ρ c) (Proc.devRef .tc main_v30) = _
  after_results_simp
  rfl

set_option maxHeartbeats 1000000 in
/-- The second endpoint's gathered rows. -/
theorem V1_v31 (c : Dev nD) : V1 m ρ c main_v31 = Cert.ReferenceIdeal.Read.val_main_v13 (F := Ideal) (a1 m c) (a3 m c) := by
  show StableHlo.after hostOps0 (W0 m ρ c) (Proc.devRef .tc main_v31) = _
  after_results_simp
  rfl

set_option maxHeartbeats 1000000 in
/-- The degree products, as a column. -/
theorem V1_v29 (c : Dev nD) : V1 m ρ c main_v29
    = shapeCast S640000x1 (Cert.ReferenceIdeal.Read.val_main_v29 (F := Ideal) (a2 m c) (a3 m c) (a4 m c) (a5 m c)) shapeCasts_S640000_S640000x1 := by
  show StableHlo.after hostOps0 (W0 m ρ c) (Proc.devRef .tc main_v29) = _
  after_results_simp
  rfl

set_option maxHeartbeats 1000000 in
/-- The first weight matrix, transposed. -/
theorem V1_v33 (c : Dev nD) : V1 m ρ c main_v33 = Cert.ReferenceIdeal.Read.val_main_v35 (F := Ideal) (a6 m c) := by
  show StableHlo.after hostOps0 (W0 m ρ c) (Proc.devRef .tc main_v33) = _
  after_results_simp
  rfl

set_option maxHeartbeats 1000000 in
/-- The second weight matrix, transposed. -/
theorem V1_v35 (c : Dev nD) : V1 m ρ c main_v35 = Cert.ReferenceIdeal.Read.val_main_v37 (F := Ideal) (a7 m c) := by
  show StableHlo.after hostOps0 (W0 m ρ c) (Proc.devRef .tc main_v35) = _
  after_results_simp
  rfl

/-! ## An argument array is as launched at every boundary before the node-update regions -/

set_option maxHeartbeats 1000000 in
theorem W2_arg0 (c : Dev nD) : W2 m ρ c (Proc.devRef .tc main_arg0) = a0 m c := by
  refine (W2_of_ne m ρ c main_arg0 (by decide)).trans ?_
  show StableHlo.after hostOps0 (W0 m ρ c) (Proc.devRef .tc main_arg0) = _
  after_results_simp
set_option maxHeartbeats 1000000 in
theorem W2_arg1 (c : Dev nD) : W2 m ρ c (Proc.devRef .tc main_arg1) = a1 m c := by
  refine (W2_of_ne m ρ c main_arg1 (by decide)).trans ?_
  show StableHlo.after hostOps0 (W0 m ρ c) (Proc.devRef .tc main_arg1) = _
  after_results_simp
set_option maxHeartbeats 1000000 in
theorem W2_arg2 (c : Dev nD) : W2 m ρ c (Proc.devRef .tc main_arg2) = a2 m c := by
  refine (W2_of_ne m ρ c main_arg2 (by decide)).trans ?_
  show StableHlo.after hostOps0 (W0 m ρ c) (Proc.devRef .tc main_arg2) = _
  after_results_simp
set_option maxHeartbeats 1000000 in
theorem W2_arg3 (c : Dev nD) : W2 m ρ c (Proc.devRef .tc main_arg3) = a3 m c := by
  refine (W2_of_ne m ρ c main_arg3 (by decide)).trans ?_
  show StableHlo.after hostOps0 (W0 m ρ c) (Proc.devRef .tc main_arg3) = _
  after_results_simp

/-- The transposed first weight matrix is an input of the edge region: it leaves it as it found it. -/
theorem W2_v33 (c : Dev nD) : W2 m ρ c (Proc.devRef .tc main_v33) = Cert.ReferenceIdeal.Read.val_main_v35 (F := Ideal) (a6 m c) :=
  (W2_arr m ρ c 3).trans (((dat0 (V1 m ρ) c).arrAt_in 3 rfl _).trans ((A_eq0 (V1 m ρ) c 3).trans (V1_v33 m ρ c)))

/-! ## The edge region's two message arrays -/

/-- The degree products as the column the edge region reads. -/
abbrev degCol (c : Dev nD) : Spec.SEc.Idx → EReal :=
  shapeCast S640000x1 (Cert.ReferenceIdeal.Read.val_main_v29 (F := Ideal) (a2 m c) (a3 m c) (a4 m c) (a5 m c)) shapeCasts_S640000_S640000x1
/-- The product of the two endpoints' gathered rows. -/
abbrev rowProd (c : Dev nD) : Spec.SE.Idx → EReal := fun i =>
  Cert.ReferenceIdeal.Read.val_main_v6 (F := Ideal) (a0 m c) (a2 m c) i * Cert.ReferenceIdeal.Read.val_main_v13 (F := Ideal) (a1 m c) (a3 m c) i

/-- The messages into the first node set, over the reference's stages of the launch arguments. -/
def msgUV (c : Dev nD) : FVec Ideal S640000x128 .f32 := fun i =>
  Spec.msgK (Cert.ReferenceIdeal.Read.val_main_v13 (F := Ideal) (a1 m c) (a3 m c)) (rowProd m c) (degCol m c)
    (Cert.ReferenceIdeal.Read.val_main_v35 (F := Ideal) (a6 m c)) (Cert.ReferenceIdeal.Read.val_main_v37 (F := Ideal) (a7 m c)) (i 0) (i 1)
/-- The messages into the second node set. -/
def msgVU (c : Dev nD) : FVec Ideal S640000x128 .f32 := fun i =>
  Spec.msgK (Cert.ReferenceIdeal.Read.val_main_v6 (F := Ideal) (a0 m c) (a2 m c)) (rowProd m c) (degCol m c)
    (Cert.ReferenceIdeal.Read.val_main_v35 (F := Ideal) (a6 m c)) (Cert.ReferenceIdeal.Read.val_main_v37 (F := Ideal) (a7 m c)) (i 0) (i 1)

/-- The edge region's inputs, at their literal types, are the reference's stages. -/
theorem aU_eq (c : Dev nD) : aU (V1 m ρ) c = Cert.ReferenceIdeal.Read.val_main_v6 (F := Ideal) (a0 m c) (a2 m c) := V1_v30 m ρ c
theorem aV_eq (c : Dev nD) : aV (V1 m ρ) c = Cert.ReferenceIdeal.Read.val_main_v13 (F := Ideal) (a1 m c) (a3 m c) := V1_v31 m ρ c
theorem aD_eq (c : Dev nD) : aD (V1 m ρ) c = degCol m c := V1_v29 m ρ c
theorem aW1_eq (c : Dev nD) : aW1 (V1 m ρ) c = Cert.ReferenceIdeal.Read.val_main_v35 (F := Ideal) (a6 m c) := V1_v33 m ρ c
theorem aW2_eq (c : Dev nD) : aW2 (V1 m ρ) c = Cert.ReferenceIdeal.Read.val_main_v37 (F := Ideal) (a7 m c) := V1_v35 m ρ c
theorem aP_eq (c : Dev nD) : aP (V1 m ρ) c = rowProd m c := by
  funext i
  show aU (V1 m ρ) c i * aV (V1 m ρ) c i = _
  rw [aU_eq m ρ c, aV_eq m ρ c]

theorem W2_v36_0 (c : Dev nD) : W2 m ρ c (Proc.devRef .tc main_v36_0) = msgUV m c := by
  refine (W2_arr m ρ c 5).trans ((final0_5 (V1 m ρ) c).trans ?_)
  rw [aV_eq m ρ c, aP_eq m ρ c, aD_eq m ρ c, aW1_eq m ρ c, aW2_eq m ρ c]
  rfl

theorem W2_v36_1 (c : Dev nD) : W2 m ρ c (Proc.devRef .tc main_v36_1) = msgVU m c := by
  refine (W2_arr m ρ c 6).trans ((final0_6 (V1 m ρ) c).trans ?_)
  rw [aU_eq m ρ c, aP_eq m ρ c, aD_eq m ρ c, aW1_eq m ρ c, aW2_eq m ρ c]
  rfl

/-! ## The scatters between the regions, and what the node-update regions find -/

/-- Messages summed into the first node set's rows by the first endpoint's index. -/
def scatU (x2 : IVec S640000 32) (u : FVec Ideal S640000x128 .f32) : FVec Ideal S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 x2) u
/-- Messages summed into the second node set's rows by the second endpoint's index. -/
def scatV (x3 : IVec S640000 32) (u : FVec Ideal S640000x128 .f32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 x3) u

theorem W3_v39 (c : Dev nD) : W3 m ρ c (Proc.devRef .tc main_v39) = scatU (a2 m c) (msgUV m c) := by
  show StableHlo.after hostOps1 (W2 m ρ c) (Proc.devRef .tc main_v39) = _
  after_results
  rw [W2_arg2 m ρ c, W2_v36_0 m ρ c]
  rfl

theorem W3_v42 (c : Dev nD) : W3 m ρ c (Proc.devRef .tc main_v42) = scatV (a3 m c) (msgVU m c) := by
  show StableHlo.after hostOps1 (W2 m ρ c) (Proc.devRef .tc main_v42) = _
  after_results
  rw [W2_arg3 m ρ c, W2_v36_1 m ρ c]
  rfl

theorem W3_arg0 (c : Dev nD) : W3 m ρ c (Proc.devRef .tc main_arg0) = a0 m c := by
  show StableHlo.after hostOps1 (W2 m ρ c) (Proc.devRef .tc main_arg0) = _
  after_results
  exact W2_arg0 m ρ c

theorem W3_arg1 (c : Dev nD) : W3 m ρ c (Proc.devRef .tc main_arg1) = a1 m c := by
  show StableHlo.after hostOps1 (W2 m ρ c) (Proc.devRef .tc main_arg1) = _
  after_results
  exact W2_arg1 m ρ c

theorem W3_v33 (c : Dev nD) : W3 m ρ c (Proc.devRef .tc main_v33) = Cert.ReferenceIdeal.Read.val_main_v35 (F := Ideal) (a6 m c) := by
  show StableHlo.after hostOps1 (W2 m ρ c) (Proc.devRef .tc main_v33) = _
  after_results
  exact W2_v33 m ρ c

/-! ## The two results -/

/-- The first node-update region's inputs, at their literal types. -/
theorem bX1_eq (c : Dev nD) : bX1 (V3 m ρ) c = a0 m c := W3_arg0 m ρ c
theorem bM1_eq (c : Dev nD) : bM1 (V3 m ρ) c = scatU (a2 m c) (msgUV m c) := W3_v39 m ρ c
theorem bW1_eq (c : Dev nD) : bW1 (V3 m ρ) c = Cert.ReferenceIdeal.Read.val_main_v35 (F := Ideal) (a6 m c) := W3_v33 m ρ c

/-- The first result array: the update of the first node set. -/
theorem W5_v43 (c : Dev nD) : W5 m ρ c (Proc.devRef .tc main_v43)
    = fun i => Spec.upd (n := 100000) (a0 m c) (scatU (a2 m c) (msgUV m c)) (Cert.ReferenceIdeal.Read.val_main_v35 (F := Ideal) (a6 m c)) (i 0) (i 1) := by
  refine (W5_of_ne m ρ c main_v43 (by decide)).trans ((W4_arr m ρ c 3).trans ((final1_3 (V3 m ρ) c).trans ?_))
  rw [bX1_eq m ρ c, bM1_eq m ρ c, bW1_eq m ρ c]

/-- The second node-update region's inputs, at their literal types. -/
theorem bX2_eq (c : Dev nD) : bX2 (V4 m ρ) c = a1 m c := (W4_of_ne m ρ c main_arg1 (by decide)).trans (W3_arg1 m ρ c)
theorem bM2_eq (c : Dev nD) : bM2 (V4 m ρ) c = scatV (a3 m c) (msgVU m c) := (W4_of_ne m ρ c main_v42 (by decide)).trans (W3_v42 m ρ c)
theorem bW2_eq (c : Dev nD) : bW2 (V4 m ρ) c = Cert.ReferenceIdeal.Read.val_main_v35 (F := Ideal) (a6 m c) :=
  (W4_arr m ρ c 2).trans (((dat1 (V3 m ρ) c).arrAt_in 2 rfl _).trans ((A_eq1 (V3 m ρ) c 2).trans (W3_v33 m ρ c)))

/-- The second result array: the update of the second node set. -/
theorem W5_v44 (c : Dev nD) : W5 m ρ c (Proc.devRef .tc main_v44)
    = fun i => Spec.upd (n := 50000) (a1 m c) (scatV (a3 m c) (msgVU m c)) (Cert.ReferenceIdeal.Read.val_main_v35 (F := Ideal) (a6 m c)) (i 0) (i 1) := by
  refine (W5_arr m ρ c 3).trans ((final2_3 (V4 m ρ) c).trans ?_)
  rw [bX2_eq m ρ c, bM2_eq m ρ c, bW2_eq m ρ c]

end Cert.KernelIdeal.KV

end
-- ==== Proof.RefValue.lean ====
import proofs.«122977_j13778255086103_1_alg».proof.Proof.Gen.ReferenceIdeal.Read
import proofs.«122977_j13778255086103_1_alg».proof.Proof.Spec

/-!
  The reference's stages read at an index, in the vocabulary of the specification: its two message arrays are
  `Spec.msgR` of the gathered endpoint rows, their product, the degree product and the two transposed weight
  matrices; its two results are `Spec.upd` of the node features, the scattered message sums and the transposed
  first weight matrix.
-/

noncomputable section

namespace Cert.ReferenceIdeal.RefValue

open Idealize.ShloMosaic Idealize.ShloMosaic.ValueIdx
open Cert.ReferenceIdeal Cert.ReferenceIdeal.Read

/-! ## The index maps of the contractions and of the broadcasts, by coordinates -/

/-- The contraction of stage 36 reads its left operand along row `e` … -/
theorem lidx36 (e : Fin 640000) (j k : Fin 128) : lidx_main_v36 (ix2 e j) k = ix2 e k :=
  funext fun a => Fin.ext (by match a with | ⟨0, _⟩ => rfl | ⟨1, _⟩ => rfl)
/-- … and its right operand down column `j`. -/
theorem ridx36 (e : Fin 640000) (j k : Fin 128) : ridx_main_v36 (ix2 e j) k = ix2 k j :=
  funext fun a => Fin.ext (by match a with | ⟨0, _⟩ => rfl | ⟨1, _⟩ => rfl)
/-- The contraction of stage 38 reads its left operand along row `e` … -/
theorem lidx38 (e : Fin 640000) (j k : Fin 128) : lidx_main_v38 (ix2 e j) k = ix2 e k :=
  funext fun a => Fin.ext (by match a with | ⟨0, _⟩ => rfl | ⟨1, _⟩ => rfl)
/-- … and its right operand down column `j`. -/
theorem ridx38 (e : Fin 640000) (j k : Fin 128) : ridx_main_v38 (ix2 e j) k = ix2 k j :=
  funext fun a => Fin.ext (by match a with | ⟨0, _⟩ => rfl | ⟨1, _⟩ => rfl)
/-- The contraction of stage 47 reads its left operand along row `e` … -/
theorem lidx47 (e : Fin 640000) (j k : Fin 128) : lidx_main_v47 (ix2 e j) k = ix2 e k :=
  funext fun a => Fin.ext (by match a with | ⟨0, _⟩ => rfl | ⟨1, _⟩ => rfl)
/-- … and its right operand down column `j`. -/
theorem ridx47 (e : Fin 640000) (j k : Fin 128) : ridx_main_v47 (ix2 e j) k = ix2 k j :=
  funext fun a => Fin.ext (by match a with | ⟨0, _⟩ => rfl | ⟨1, _⟩ => rfl)
/-- The contraction of stage 49 reads its left operand along row `e` … -/
theorem lidx49 (e : Fin 640000) (j k : Fin 128) : lidx_main_v49 (ix2 e j) k = ix2 e k :=
  funext fun a => Fin.ext (by match a with | ⟨0, _⟩ => rfl | ⟨1, _⟩ => rfl)
/-- … and its right operand down column `j`. -/
theorem ridx49 (e : Fin 640000) (j k : Fin 128) : ridx_main_v49 (ix2 e j) k = ix2 k j :=
  funext fun a => Fin.ext (by match a with | ⟨0, _⟩ => rfl | ⟨1, _⟩ => rfl)
/-- The contraction of stage 58 reads its left operand along row `r` … -/
theorem lidx58 (r : Fin 100000) (j k : Fin 128) : lidx_main_v58 (ix2 r j) k = ix2 r k :=
  funext fun a => Fin.ext (by match a with | ⟨0, _⟩ => rfl | ⟨1, _⟩ => rfl)
/-- … and its right operand down column `j`. -/
theorem ridx58 (r : Fin 100000) (j k : Fin 128) : ridx_main_v58 (ix2 r j) k = ix2 k j :=
  funext fun a => Fin.ext (by match a with | ⟨0, _⟩ => rfl | ⟨1, _⟩ => rfl)
/-- The contraction of stage 66 reads its left operand along row `r` … -/
theorem lidx66 (r : Fin 50000) (j k : Fin 128) : lidx_main_v66 (ix2 r j) k = ix2 r k :=
  funext fun a => Fin.ext (by match a with | ⟨0, _⟩ => rfl | ⟨1, _⟩ => rfl)
/-- … and its right operand down column `j`. -/
theorem ridx66 (r : Fin 50000) (j k : Fin 128) : ridx_main_v66 (ix2 r j) k = ix2 k j :=
  funext fun a => Fin.ext (by match a with | ⟨0, _⟩ => rfl | ⟨1, _⟩ => rfl)

/-- The normalisation of edge `e` is broadcast along the features: every feature `j` of row `e` reads entry `e`. -/
theorem idx4041 (e : Fin 640000) (j : Fin 128) : idx_main_v40 (idx_main_v41 (ix2 e j)) = ix1 e :=
  funext fun a => Fin.ext (by match a with | ⟨0, _⟩ => rfl)
/-- The same for the second message array's copy of the broadcast. -/
theorem idx5152 (e : Fin 640000) (j : Fin 128) : idx_main_v51 (idx_main_v52 (ix2 e j)) = ix1 e :=
  funext fun a => Fin.ext (by match a with | ⟨0, _⟩ => rfl)

variable (x0 : FVec Ideal S100000x128 .f32) (x1 : FVec Ideal S50000x128 .f32) (x2 x3 : IVec S640000 32) (x4 : FVec Ideal S100000 .f32) (x5 : FVec Ideal S50000 .f32) (x6 x7 : FVec Ideal S128x128 .f32)

/-- The messages into the first node set, at edge `e` and feature `j`. -/
theorem msg_uv_apply (e : Fin 640000) (j : Fin 128) :
    val_main_v42 (F := Ideal) x0 x1 x2 x3 x4 x5 x6 x7 (ix2 e j)
      = Spec.msgR (val_main_v13 (F := Ideal) x1 x3) (val_main_v14 (F := Ideal) x0 x1 x2 x3)
          (val_main_v29 (F := Ideal) x2 x3 x4 x5) (val_main_v35 (F := Ideal) x6) (val_main_v37 (F := Ideal) x7) e j := by
  -- the product of the two contractions' sum with the broadcast normalisation, stage by stage
  rw [val_main_v42_apply, val_main_v39_apply, val_main_v36_apply, val_main_v38_apply, val_main_v41_apply,
    val_main_v40_apply, val_main_v34_apply, val_main_v33_apply, val_main_cst_7_apply, val_main_v32_apply,
    val_main_v31_apply, val_main_v30_apply, val_main_cst_apply]
  simp only [lidx36, ridx36, lidx38, ridx38, idx4041, Ideal.mulf_def, Ideal.addf_def, Ideal.hostDivf_def,
    Ideal.hostUnary_sqrt_def, Ideal.ofBits_def, Spec.msgR, Spec.eps]

/-- The messages into the second node set, at edge `e` and feature `j`. -/
theorem msg_vu_apply (e : Fin 640000) (j : Fin 128) :
    val_main_v53 (F := Ideal) x0 x1 x2 x3 x4 x5 x6 x7 (ix2 e j)
      = Spec.msgR (val_main_v6 (F := Ideal) x0 x2) (val_main_v14 (F := Ideal) x0 x1 x2 x3)
          (val_main_v29 (F := Ideal) x2 x3 x4 x5) (val_main_v46 (F := Ideal) x6) (val_main_v48 (F := Ideal) x7) e j := by
  rw [val_main_v53_apply, val_main_v50_apply, val_main_v47_apply, val_main_v49_apply, val_main_v52_apply,
    val_main_v51_apply, val_main_v34_apply, val_main_v33_apply, val_main_cst_7_apply, val_main_v32_apply,
    val_main_v31_apply, val_main_v30_apply, val_main_cst_apply]
  simp only [lidx47, ridx47, lidx49, ridx49, idx5152, Ideal.mulf_def, Ideal.addf_def, Ideal.hostDivf_def,
    Ideal.hostUnary_sqrt_def, Ideal.ofBits_def, Spec.msgR, Spec.eps]

/-- The first result at node `r` and feature `j`. -/
theorem out0_apply (r : Fin 100000) (j : Fin 128) :
    val_main_v64 (F := Ideal) x0 x1 x2 x3 x4 x5 x6 x7 (ix2 r j)
      = Spec.upd (n := 100000) x0 (val_main_v45 (F := Ideal) x0 x1 x2 x3 x4 x5 x6 x7) (val_main_v57 (F := Ideal) x6) r j := by
  -- the rectifier's select on the transformed row plus the summed messages
  rw [val_main_v64_apply, val_main_v61_apply, val_main_v63_apply, val_main_v59_apply, val_main_v58_apply,
    val_main_v60_apply, val_main_cst_10_apply, val_main_v62_apply, val_main_cst_11_apply]
  simp only [lidx58, ridx58, Ideal.mulf_def, Ideal.addf_def, Ideal.ofBits_def, Spec.upd, Spec.leaky, Spec.zero,
    Spec.slope]

/-- The second result at node `r` and feature `j`. -/
theorem out1_apply (r : Fin 50000) (j : Fin 128) :
    val_main_v72 (F := Ideal) x0 x1 x2 x3 x4 x5 x6 x7 (ix2 r j)
      = Spec.upd (n := 50000) x1 (val_main_v56 (F := Ideal) x0 x1 x2 x3 x4 x5 x6 x7) (val_main_v65 (F := Ideal) x6) r j := by
  rw [val_main_v72_apply, val_main_v69_apply, val_main_v71_apply, val_main_v67_apply, val_main_v66_apply,
    val_main_v68_apply, val_main_cst_12_apply, val_main_v70_apply, val_main_cst_13_apply]
  simp only [lidx66, ridx66, Ideal.mulf_def, Ideal.addf_def, Ideal.ofBits_def, Spec.upd, Spec.leaky, Spec.zero,
    Spec.slope]

end Cert.ReferenceIdeal.RefValue

end
-- ==== Proof.PreFacts.lean ====
import proofs.«122977_j13778255086103_1_alg».proof.Proof.Gen.Pre_finite_inputs
import proofs.«122977_j13778255086103_1_alg».proof.Pre_finite_inputs
import Idealize.ShloMosaic.PureOps.Ideal
import Idealize.ShloMosaic.PureOps.Ideal.Laws
import Idealize.ShloMosaic.Lib.ReduceAll
import Idealize.ShloMosaic.Lib.ValueIdx

/-!
  What the precondition says of the inputs, at the extended reals: every entry of the six float arrays is a real
  number, and on every edge the product of its two endpoints' degrees is non-negative.
-/

noncomputable section

namespace Cert.PreFacts

open Idealize.ShloMosaic Idealize.ShloMosaic.ValueIdx
open Cert.Pre_finite_inputs

/-- The scalar shape has exactly one index. -/
instance subsingleton_scalar_idx : Subsingleton S_.Idx := ⟨fun a b => funext fun d => d.elim0⟩

/-- The word of positive infinity denotes the top of the extended reals. -/
theorem ofBits_pos_inf : Ideal.ofBits .f32 0x7F800000#32 = (⊤ : EReal) := by simp [Ideal.ofBits, Ideal.ieee]

/-- The comparison word of the strict order is 1 exactly when `a < b`. -/
theorem cmp_olt_eq_one (a b : EReal) : Ideal.cmp .olt a b = 1#1 ↔ a < b := by
  unfold Ideal.cmp
  by_cases hab : a < b <;> simp [hab]

/-- The comparison word of `a ≥ b` is 1 exactly when `b ≤ a`. -/
theorem cmp_oge_eq_one (a b : EReal) : Ideal.cmp .oge a b = 1#1 ↔ b ≤ a := by
  unfold Ideal.cmp
  by_cases hab : b ≤ a <;> simp [hab]

/-- An extended real whose absolute value `max x (-x)` lies strictly below `⊤` is a real number:
    at `⊥` and at `⊤` the absolute value is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The conjunction over all entries of "the absolute value is strictly below the word of positive infinity", read
    back: if it is 1, every entry is a real number. -/
theorem all_finite {S : Shape} {axes : List (Fin S.rank)} (x : FVec Ideal S .f32)
    (hb : S_.BroadcastsInDim S (![] : Fin 0 → Fin S.rank)) (hred : S.ReducesTo axes S_) (h0 : 0 < S_.numel)
    (h : Host.reduce IntOp.andi
          (cmpf .olt (Host.absf x) (broadcastInDim S ![] hb (constant (F := Ideal) S_ .f32 0x7F800000#32)))
          (constantI S_ 1 1#1) hred h0 ix0 = 1#1) (i : S.Idx) : ∃ r : ℝ, x i = (r : EReal) := by
  have hi := Host.reduce_andi_all _ _ hred h0 ix0 h i
  have hlt : max (x i) (-(x i)) < Ideal.ofBits .f32 0x7F800000#32 := (cmp_olt_eq_one _ _).1 hi
  rw [ofBits_pos_inf] at hlt
  exact real_of_abs_lt_top _ hlt

/-- The conjunction over all entries of "the entry is at least the zero word", read back: if it is 1, every entry
    is non-negative. -/
theorem all_nonneg {S : Shape} {axes : List (Fin S.rank)} (y : FVec Ideal S .f32)
    (hb : S_.BroadcastsInDim S (![] : Fin 0 → Fin S.rank)) (hred : S.ReducesTo axes S_) (h0 : 0 < S_.numel)
    (h : Host.reduce IntOp.andi
          (cmpf .oge y (broadcastInDim S ![] hb (constant (F := Ideal) S_ .f32 0x00000000#32)))
          (constantI S_ 1 1#1) hred h0 ix0 = 1#1) (i : S.Idx) : (0 : EReal) ≤ y i := by
  have hi := Host.reduce_andi_all _ _ hred h0 ix0 h i
  have hle : Ideal.ofBits .f32 0x00000000#32 ≤ y i := (cmp_oge_eq_one _ _).1 hi
  rwa [Ideal.ofBits_zero_f32] at hle

/-- The conjunction of two arrays of words, read at an index, is the conjunction of the two words there. -/
theorem andi_apply {s : Shape} {w : Nat} (a b : IVec s w) (i : s.Idx) : andi a b i = IntOp.andi (a i) (b i) := rfl

variable [Cert.Pre_finite_inputs.Facts]
open Cert.Pre_finite_inputs.Facts

variable (x0 : FVec Ideal S100000x128 .f32) (x1 : FVec Ideal S50000x128 .f32) (x2 x3 : IVec S640000 32) (x4 : FVec Ideal S100000 .f32) (x5 : FVec Ideal S50000 .f32) (x6 x7 : FVec Ideal S128x128 .f32)

/-- The product, per edge, of the degrees of the edge's two endpoints, as the precondition computes it: each endpoint
    index wrapped once if negative and the degree array read there. -/
def degProd (x2 x3 : IVec S640000 32) (x4 : FVec Ideal S100000 .f32) (x5 : FVec Ideal S50000 .f32) : FVec Ideal S640000 .f32 :=
  mulf
    (Host.gather gather_S100000_S640000x1_S640000_n_0_n_n_0_1_1 x4
      (broadcastInDim S640000x1 ![0] bcast_S640000_S640000x1_0
        (select (cmpi .slt x2 (broadcastInDim S640000 ![] bcast_S_S640000 (constantI S_ 32 0#32)))
          (addi x2 (broadcastInDim S640000 ![] bcast_S_S640000 (constantI S_ 32 100000#32))) x2)))
    (Host.gather gather_S50000_S640000x1_S640000_n_0_n_n_0_1_1 x5
      (broadcastInDim S640000x1 ![0] bcast_S640000_S640000x1_0
        (select (cmpi .slt x3 (broadcastInDim S640000 ![] bcast_S_S640000 (constantI S_ 32 0#32)))
          (addi x3 (broadcastInDim S640000 ![] bcast_S_S640000 (constantI S_ 32 50000#32))) x3)))

/-- The precondition, decoded. -/
theorem decode (h : fn (F := Ideal) x0 x1 x2 x3 x4 x5 x6 x7 = fun _ => 1#1) :
    (∀ i, ∃ r : ℝ, x0 i = (r : EReal)) ∧ (∀ i, ∃ r : ℝ, x1 i = (r : EReal))
    ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal))
    ∧ ∀ e, (0 : EReal) ≤ degProd x2 x3 x4 x5 e := by
  have h0 := congrFun h ValueIdx.ix0
  dsimp only [fn, fn_part1, fn_part2] at h0
  simp only [andi_apply, IntOp.andi_eq_one] at h0
  obtain ⟨⟨⟨⟨⟨⟨f0, f1⟩, f4⟩, f5⟩, f6⟩, f7⟩, fd⟩ := h0
  exact ⟨all_finite x0 _ _ _ f0, all_finite x1 _ _ _ f1, all_finite x4 _ _ _ f4, all_finite x5 _ _ _ f5,
    all_finite x6 _ _ _ f6, all_finite x7 _ _ _ f7, all_nonneg (degProd x2 x3 x4 x5) _ _ _ fd⟩

end Cert.PreFacts

end
-- ==== Proof.Bridge.lean ====
import proofs.«122977_j13778255086103_1_alg».proof.Defs
import proofs.«122977_j13778255086103_1_alg».proof.Proof.KFold
import proofs.«122977_j13778255086103_1_alg».proof.Proof.RefValue
import proofs.«122977_j13778255086103_1_alg».proof.Proof.PreFacts
import proofs.«122977_j13778255086103_1_alg».proof.Proof.LibRowwise

/-!
  The two programs' results are the same arrays.

  Under the precondition every gathered endpoint row and every weight is a real number, and every edge's degree
  product is a non-negative real, so on every edge the message with the normalisation multiplied in before the
  contraction equals the message normalised after it (`Spec.msgK_eq_msgR`). The scatter into the node rows, the node's own
  transformed row and the rectifier are then the same functions applied to equal arrays.
-/

set_option maxRecDepth 16384

noncomputable section

namespace Cert.Bridge

open Idealize.ShloMosaic Idealize.ShloMosaic.ValueIdx
open Cert.ReferenceIdeal.Read

/-- A gathered element is an element of the array gathered from: real where that array is. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) := hx _

section Arrays

open Cert.ReferenceIdeal

variable (x0 : FVec Ideal S100000x128 .f32) (x1 : FVec Ideal S50000x128 .f32) (x2 x3 : IVec S640000 32)
  (x4 : FVec Ideal S100000 .f32) (x5 : FVec Ideal S50000 .f32) (x6 x7 : FVec Ideal S128x128 .f32)

theorem v6_real (h0 : ∀ i, ∃ r : ℝ, x0 i = (r : EReal)) (i : S640000x128.Idx) : ∃ r : ℝ, val_main_v6 (F := Ideal) x0 x2 i = (r : EReal) :=
  gather_real _ x0 _ h0 i
theorem v13_real (h1 : ∀ i, ∃ r : ℝ, x1 i = (r : EReal)) (i : S640000x128.Idx) : ∃ r : ℝ, val_main_v13 (F := Ideal) x1 x3 i = (r : EReal) :=
  gather_real _ x1 _ h1 i
theorem v14_real (h0 : ∀ i, ∃ r : ℝ, x0 i = (r : EReal)) (h1 : ∀ i, ∃ r : ℝ, x1 i = (r : EReal)) (i : S640000x128.Idx) :
    ∃ r : ℝ, val_main_v14 (F := Ideal) x0 x1 x2 x3 i = (r : EReal) := by
  obtain ⟨a, ha⟩ := v6_real x0 x2 h0 i
  obtain ⟨b, hb⟩ := v13_real x1 x3 h1 i
  refine ⟨a * b, ?_⟩
  show val_main_v6 (F := Ideal) x0 x2 i * val_main_v13 (F := Ideal) x1 x3 i = _
  rw [ha, hb, EReal.coe_mul]
theorem v35_real (h6 : ∀ i, ∃ r : ℝ, x6 i = (r : EReal)) (i : S128x128.Idx) : ∃ r : ℝ, val_main_v35 (F := Ideal) x6 i = (r : EReal) := by
  rw [val_main_v35_apply]; exact h6 _
theorem v37_real (h7 : ∀ i, ∃ r : ℝ, x7 i = (r : EReal)) (i : S128x128.Idx) : ∃ r : ℝ, val_main_v37 (F := Ideal) x7 i = (r : EReal) := by
  rw [val_main_v37_apply]; exact h7 _

/-- The precondition's degree product is the reference's stage: the same operations on the same arguments. -/
theorem degProd_eq [Cert.Pre_finite_inputs.Facts] : Cert.PreFacts.degProd x2 x3 x4 x5 = val_main_v29 (F := Ideal) x2 x3 x4 x5 := rfl

/-- An edge's degree product is a non-negative real. -/
theorem v29_nonneg [Cert.Pre_finite_inputs.Facts] (h4 : ∀ i, ∃ r : ℝ, x4 i = (r : EReal)) (h5 : ∀ i, ∃ r : ℝ, x5 i = (r : EReal))
    (hs : ∀ e, (0 : EReal) ≤ Cert.PreFacts.degProd x2 x3 x4 x5 e) (e : Fin 640000) :
    ∃ r : ℝ, val_main_v29 (F := Ideal) x2 x3 x4 x5 (ix1 e) = (r : EReal) ∧ 0 ≤ r := by
  obtain ⟨a, ha⟩ : ∃ r : ℝ, val_main_v21 (F := Ideal) x2 x4 (ix1 e) = (r : EReal) := gather_real _ x4 _ h4 _
  obtain ⟨b, hb⟩ : ∃ r : ℝ, val_main_v28 (F := Ideal) x3 x5 (ix1 e) = (r : EReal) := gather_real _ x5 _ h5 _
  have hv : val_main_v29 (F := Ideal) x2 x3 x4 x5 (ix1 e) = ((a * b : ℝ) : EReal) := by
    show val_main_v21 (F := Ideal) x2 x4 (ix1 e) * val_main_v28 (F := Ideal) x3 x5 (ix1 e) = _
    rw [ha, hb, EReal.coe_mul]
  refine ⟨a * b, hv, ?_⟩
  have h := hs (ix1 e)
  rw [degProd_eq, hv] at h
  exact EReal.coe_nonneg.mp h

end Arrays

section Results

open Cert.ReferenceIdeal

variable (x0 : FVec Ideal S100000x128 .f32) (x1 : FVec Ideal S50000x128 .f32) (x2 x3 : IVec S640000 32)
  (x4 : FVec Ideal S100000 .f32) (x5 : FVec Ideal S50000 .f32) (x6 x7 : FVec Ideal S128x128 .f32)
  (hc : S640000.ShapeCasts S640000x1)

/-- The degree products as a column. -/
abbrev dcol : Spec.SEc.Idx → EReal := shapeCast S640000x1 (val_main_v29 (F := Ideal) x2 x3 x4 x5) hc

/-- What the decoded precondition gives, gathered in one record. -/
structure Decoded [Cert.Pre_finite_inputs.Facts] : Prop where
  h0 : ∀ i, ∃ r : ℝ, x0 i = (r : EReal)
  h1 : ∀ i, ∃ r : ℝ, x1 i = (r : EReal)
  h4 : ∀ i, ∃ r : ℝ, x4 i = (r : EReal)
  h5 : ∀ i, ∃ r : ℝ, x5 i = (r : EReal)
  h6 : ∀ i, ∃ r : ℝ, x6 i = (r : EReal)
  h7 : ∀ i, ∃ r : ℝ, x7 i = (r : EReal)
  hs : ∀ e, (0 : EReal) ≤ Cert.PreFacts.degProd x2 x3 x4 x5 e

variable [Cert.Pre_finite_inputs.Facts] (H : Decoded x0 x1 x2 x3 x4 x5 x6 x7)
include H

/-- The reference's messages into the first node set are the kernel's form of them. -/
theorem msg_uv_eq : val_main_v42 (F := Ideal) x0 x1 x2 x3 x4 x5 x6 x7
    = fun i => Spec.msgK (val_main_v13 (F := Ideal) x1 x3) (val_main_v14 (F := Ideal) x0 x1 x2 x3) (dcol x2 x3 x4 x5 hc)
        (val_main_v35 (F := Ideal) x6) (val_main_v37 (F := Ideal) x7) (i 0) (i 1) := by
  funext i
  obtain ⟨e, j, rfl⟩ : ∃ (e : Fin 640000) (j : Fin 128), i = ix2 e j := ⟨i 0, i 1, eq_ix2 i⟩
  rw [Cert.ReferenceIdeal.RefValue.msg_uv_apply]
  exact (Spec.msgK_eq_msgR _ _ (dcol x2 x3 x4 x5 hc) _ _ _ e j (v13_real x1 x3 H.h1) (v14_real x0 x1 x2 x3 H.h0 H.h1)
    (v35_real x6 H.h6) (v37_real x7 H.h7) (v29_nonneg x2 x3 x4 x5 H.h4 H.h5 H.hs e)
    (Cert.Lib.Rowwise.column_apply _ hc e 0)).symm

/-- The reference's messages into the second node set are the kernel's form of them. -/
theorem msg_vu_eq : val_main_v53 (F := Ideal) x0 x1 x2 x3 x4 x5 x6 x7
    = fun i => Spec.msgK (val_main_v6 (F := Ideal) x0 x2) (val_main_v14 (F := Ideal) x0 x1 x2 x3) (dcol x2 x3 x4 x5 hc)
        (val_main_v35 (F := Ideal) x6) (val_main_v37 (F := Ideal) x7) (i 0) (i 1) := by
  funext i
  obtain ⟨e, j, rfl⟩ : ∃ (e : Fin 640000) (j : Fin 128), i = ix2 e j := ⟨i 0, i 1, eq_ix2 i⟩
  rw [Cert.ReferenceIdeal.RefValue.msg_vu_apply]
  exact (Spec.msgK_eq_msgR _ _ (dcol x2 x3 x4 x5 hc) _ _ _ e j (v6_real x0 x2 H.h0) (v14_real x0 x1 x2 x3 H.h0 H.h1)
    (v35_real x6 H.h6) (v37_real x7 H.h7) (v29_nonneg x2 x3 x4 x5 H.h4 H.h5 H.hs e)
    (Cert.Lib.Rowwise.column_apply _ hc e 0)).symm

/-- The reference's first result: the update of the first node set over the scatter of the kernel's form of the messages. -/
theorem out0_eq : val_main_v64 (F := Ideal) x0 x1 x2 x3 x4 x5 x6 x7
    = fun i => Spec.upd (n := 100000) x0
        (Cert.KernelIdeal.KV.scatU x2 fun i => Spec.msgK (val_main_v13 (F := Ideal) x1 x3) (val_main_v14 (F := Ideal) x0 x1 x2 x3)
          (dcol x2 x3 x4 x5 hc) (val_main_v35 (F := Ideal) x6) (val_main_v37 (F := Ideal) x7) (i 0) (i 1))
        (val_main_v35 (F := Ideal) x6) (i 0) (i 1) := by
  funext i
  obtain ⟨r, j, rfl⟩ : ∃ (r : Fin 100000) (j : Fin 128), i = ix2 r j := ⟨i 0, i 1, eq_ix2 i⟩
  rw [Cert.ReferenceIdeal.RefValue.out0_apply]
  have e1 : val_main_v45 (F := Ideal) x0 x1 x2 x3 x4 x5 x6 x7
      = Cert.KernelIdeal.KV.scatU x2 (val_main_v42 (F := Ideal) x0 x1 x2 x3 x4 x5 x6 x7) := rfl
  have e2 : val_main_v57 (F := Ideal) x6 = val_main_v35 (F := Ideal) x6 := rfl
  rw [e1, e2, msg_uv_eq x0 x1 x2 x3 x4 x5 x6 x7 hc H]

/-- The reference's second result, likewise. -/
theorem out1_eq : val_main_v72 (F := Ideal) x0 x1 x2 x3 x4 x5 x6 x7
    = fun i => Spec.upd (n := 50000) x1
        (Cert.KernelIdeal.KV.scatV x3 fun i => Spec.msgK (val_main_v6 (F := Ideal) x0 x2) (val_main_v14 (F := Ideal) x0 x1 x2 x3)
          (dcol x2 x3 x4 x5 hc) (val_main_v35 (F := Ideal) x6) (val_main_v37 (F := Ideal) x7) (i 0) (i 1))
        (val_main_v35 (F := Ideal) x6) (i 0) (i 1) := by
  funext i
  obtain ⟨r, j, rfl⟩ : ∃ (r : Fin 50000) (j : Fin 128), i = ix2 r j := ⟨i 0, i 1, eq_ix2 i⟩
  rw [Cert.ReferenceIdeal.RefValue.out1_apply]
  have e1 : val_main_v56 (F := Ideal) x0 x1 x2 x3 x4 x5 x6 x7
      = Cert.KernelIdeal.KV.scatV x3 (val_main_v53 (F := Ideal) x0 x1 x2 x3 x4 x5 x6 x7) := rfl
  have e2 : val_main_v65 (F := Ideal) x6 = val_main_v35 (F := Ideal) x6 := rfl
  rw [e1, e2, msg_vu_eq x0 x1 x2 x3 x4 x5 x6 x7 hc H]

end Results

end Cert.Bridge

end
-- ==== Proof.lean ====
/-
  The kernel program and its reference compute the same two arrays.

  Both gather, for every edge, the two endpoints' feature rows and degrees, form per edge the message
      (∑ₖ x(e,k)·W1ᵀ(k,j) + ∑ₖ u(e,k)·v(e,k)·W2ᵀ(k,j)) / √(deg_u·deg_v + ε),
  sum the messages into the endpoint's row, add the node's own transformed row and apply the leaky rectifier. The kernel
  program multiplies the normalisation into the rows before its contractions and takes it as a reciprocal square root, in
  three tiled regions with the gathers and the two scatters between them done by host operations; the reference
  normalises after the contraction and divides one by a square root. Under the precondition — every float input finite
  and, on every edge, the product of the endpoint degrees non-negative — the normalisation is a positive real and the
  two forms agree (`Spec.msgK_eq_msgR`); everything else is the same operations on equal arrays.

  The frames: the two kernel programs' are the generated frame certificates; the reference's is its generated run with the
  results dropped. The kernel program's value is read off the same launch with the two result buffers named
  (`KV.run_results`), each region's result array as one function of what the region finds (`KV.final0_5` … `KV.final2_3`),
  and the boundaries' contents walked back to the launch memory (`KV.W5_v43`, `KV.W5_v44`).
-/
import proofs.«122977_j13778255086103_1_alg».proof.Defs
import proofs.«122977_j13778255086103_1_alg».proof.Proof.Gen.Kernel
import proofs.«122977_j13778255086103_1_alg».proof.Proof.Gen.Kernel.Frame
import proofs.«122977_j13778255086103_1_alg».proof.Proof.Gen.KernelIdeal
import proofs.«122977_j13778255086103_1_alg».proof.Proof.Gen.KernelIdeal.Frame
import proofs.«122977_j13778255086103_1_alg».proof.Proof.Gen.ReferenceIdeal
import proofs.«122977_j13778255086103_1_alg».proof.Proof.Gen.ReferenceIdeal.Run
import proofs.«122977_j13778255086103_1_alg».proof.Proof.Gen.ReferenceIdeal.Read
import proofs.«122977_j13778255086103_1_alg».proof.Proof.Gen.Pre_finite_inputs
import proofs.«122977_j13778255086103_1_alg».proof.Proof.KRun
import proofs.«122977_j13778255086103_1_alg».proof.Proof.KFold
import proofs.«122977_j13778255086103_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- What the precondition gives of the kernel program's launch memory on core `c`. -/
theorem decoded (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Bridge.Decoded (Cert.KernelIdeal.KV.a0 m c) (Cert.KernelIdeal.KV.a1 m c) (Cert.KernelIdeal.KV.a2 m c) (Cert.KernelIdeal.KV.a3 m c)
      (Cert.KernelIdeal.KV.a4 m c) (Cert.KernelIdeal.KV.a5 m c) (Cert.KernelIdeal.KV.a6 m c) (Cert.KernelIdeal.KV.a7 m c) := by
  obtain ⟨h0, h1, h4, h5, h6, h7, hs⟩ := Cert.PreFacts.decode _ _ _ _ _ _ _ _ (hpre c)
  exact ⟨h0, h1, h4, h5, h6, h7, hs⟩

theorem algebraic : Cert.algebraic_KernelIdeal_ReferenceIdeal := by
  intro m ρ m' ρ' hpre hagree
  refine ⟨fun c => Cert.KernelIdeal.Gen.W5 m ρ c (Proc.devRef .tc Cert.KernelIdeal.main_v43),
    fun c => Cert.KernelIdeal.Gen.W5 m ρ c (Proc.devRef .tc Cert.KernelIdeal.main_v44),
    Cert.KernelIdeal.KV.run_results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v64_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.out0_eq _ _ _ _ _ _ _ _ Cert.KernelIdeal.Facts₀.shapeCasts_S640000_S640000x1 (decoded m hpre c)).trans
      (Cert.KernelIdeal.KV.W5_v43 m ρ c).symm
  · rw [Cert.ReferenceIdeal.Read.val_main_v72_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.out1_eq _ _ _ _ _ _ _ _ Cert.KernelIdeal.Facts₀.shapeCasts_S640000_S640000x1 (decoded m hpre c)).trans
      (Cert.KernelIdeal.KV.W5_v44 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
